-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32x10 : Shape := ⟨2, ![32, 10]⟩
abbrev S32 : Shape := ⟨1, ![32]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S32x10 : S_.BroadcastsInDim S32x10 (![] : Fin 0 → Fin S32x10.rank)
  reducesTo_S32x10_S_d0_1 : S32x10.ReducesTo [0, 1] S_

variable [Facts]

def fn {F : FTy → Type} [FloatOps F] (main_arg0 : FVec F S32x2048 .f32) (main_arg1 : FVec F S32x10 .f32) (main_arg2 : IVec S32 32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x10 .f32 := Host.absf main_arg1
  let main_cst_0 : FVec F S_ .f32 := constant S_ .f32 0x7F800000#32
  let main_v5 : FVec F S32x10 .f32 := broadcastInDim S32x10 ![] bcast_S_S32x10 main_cst_0
  let main_v6 : IVec S32x10 1 := cmpf .olt main_v4 main_v5
  let main_c_1 : IVec S_ 1 := constantI S_ 1 1#1
  let main_v7 : IVec S_ 1 := (fun x v => Host.reduce IntOp.andi x v reducesTo_S32x10_S_d0_1 h_S_) main_v6 main_c_1
  let main_v8 : IVec S_ 1 := andi main_v3 main_v7
  main_v8
-- ==== Kernel.lean ====
abbrev S32x2048 : Shape := ⟨2, ![32, 2048]⟩
abbrev S32x10 : Shape := ⟨2, ![32, 10]⟩
abbrev S32 : Shape := ⟨1, ![32]⟩
abbrev S_ : Shape := ⟨0, ![]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩
abbrev S8x128 : Shape := ⟨2, ![8, 128]⟩
abbrev S8x256 : Shape := ⟨2, ![8, 256]⟩
abbrev S8x256x1 : Shape := ⟨3, ![8, 256, 1]⟩
abbrev S8x1x256 : Shape := ⟨3, ![8, 1, 256]⟩
abbrev S8x256x256 : Shape := ⟨3, ![8, 256, 256]⟩
abbrev S8 : Shape := ⟨1, ![8]⟩
abbrev S1x8 : Shape := ⟨2, ![1, 8]⟩
abbrev S1x1 : Shape := ⟨2, ![1, 1]⟩

abbrev nBuf : Space → Nat
  | .hbm => 54
  | .vmem => 6
  | .smem => 0
  | _ => 0

abbrev bufTy : (tb : Table) → Fin (tcTables nBuf tb) → BufTy
  | .hbm, ⟨0, _⟩ => ⟨S32x2048, .f32⟩
  | .hbm, ⟨1, _⟩ => ⟨S32x10, .f32⟩
  | .hbm, ⟨2, _⟩ => ⟨S32, .i32⟩
  | .hbm, ⟨3, _⟩ => ⟨S_, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32x1, .f32⟩
  | .hbm, ⟨9, _⟩ => ⟨S32x10, .f32⟩
  | .hbm, ⟨10, _⟩ => ⟨S32x10, .f32⟩
  | .hbm, ⟨11, _⟩ => ⟨S32x10, .f32⟩
  | .hbm, ⟨12, _⟩ => ⟨S_, .f32⟩
  | .hbm, ⟨13, _⟩ => ⟨S32, .f32⟩
  | .hbm, ⟨14, _⟩ => ⟨S32x1, .f32⟩
  | .hbm, ⟨15, _⟩ => ⟨S32x1, .f32⟩
  | .hbm, ⟨16, _⟩ => ⟨S32x10, .f32⟩
  | .hbm, ⟨17, _⟩ => ⟨S32x10, .f32⟩
  | .hbm, ⟨18, _⟩ => ⟨S32x1, .i32⟩
  | .hbm, ⟨19, _⟩ => ⟨S_, .i32⟩
  | .hbm, ⟨20, _⟩ => ⟨S32x1, .i32⟩
  | .hbm, ⟨21, _⟩ => ⟨S32x1, .i1⟩
  | .hbm, ⟨22, _⟩ => ⟨S_, .i32⟩
  | .hbm, ⟨23, _⟩ => ⟨S32x1, .i32⟩
  | .hbm, ⟨24, _⟩ => ⟨S32x1, .i32⟩
  | .hbm, ⟨25, _⟩ => ⟨S32x1, .i32⟩
  | .hbm, ⟨26, _⟩ => ⟨S32x1x1, .i32⟩
  | .hbm, ⟨27, _⟩ => ⟨S1, .i32⟩
  | .hbm, ⟨28, _⟩ => ⟨S_, .i32⟩
  | .hbm, ⟨29, _⟩ => ⟨S32x1x1, .i32⟩
  | .hbm, ⟨30, _⟩ => ⟨S32x1x1, .i1⟩
  | .hbm, ⟨31, _⟩ => ⟨S1x1x1, .i32⟩
  | .hbm, ⟨32, _⟩ => ⟨S32x1x1, .i32⟩
  | .hbm, ⟨33, _⟩ => ⟨S32x1x1, .i1⟩
  | .hbm, ⟨34, _⟩ => ⟨S32x1x1, .i1⟩
  | .hbm, ⟨35, _⟩ => ⟨S_, .i1⟩
  | .hbm, ⟨36, _⟩ => ⟨S32x1, .i1⟩
  | .hbm, ⟨37, _⟩ => ⟨S32x1, .f32⟩
  | .hbm, ⟨38, _⟩ => ⟨S_, .f32⟩
  | .hbm, ⟨39, _⟩ => ⟨S32x1, .f32⟩
  | .hbm, ⟨40, _⟩ => ⟨S32x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x128, .f32⟩
  | .hbm, ⟨47, _⟩ => ⟨S1x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x128, .f32⟩
  | .local _ .vmem, ⟨5, _⟩ => ⟨S8x128, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_cst : Ref sig .tc := ⟨.hbm, 41, rfl⟩
abbrev main_v3 : Ref sig .tc := ⟨.hbm, 42, rfl⟩
abbrev main_cst_0 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_cst_2 : Ref sig .tc := ⟨.hbm, 51, rfl⟩
abbrev main_v10 : Ref sig .tc := ⟨.hbm, 52, rfl⟩
abbrev main_v11 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg0 : BitVec 32 := BitVec.ofNat 32 (i 0).val
  let c3_i32 : BitVec 32 := 3#32
  let v33 : BitVec 1 := Scalar.cmpi .eq arg0 c3_i32
  let arg1 : BitVec 32 := BitVec.ofNat 32 (i 1).val
  let c7_i32 : BitVec 32 := 7#32
  let v34 : BitVec 1 := Scalar.cmpi .eq arg1 c7_i32
  let v35 : BitVec 1 := Scalar.andi v33 v34
  let arg2 : BitVec 32 := BitVec.ofNat 32 (i 2).val
  let c7_i32_14 : BitVec 32 := 7#32
  let v36 : BitVec 1 := Scalar.cmpi .eq arg2 c7_i32_14
  let v37 : BitVec 1 := Scalar.andi v35 v36
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

class Facts₀ : Prop where
  reducesTo_S32x10_S32_d1 : S32x10.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x10_0_1 : S32x1.BroadcastsInDim S32x10 (![0, 1] : Fin 2 → Fin S32x10.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  reducesTo_S32x1_S_d0_1 : S32x1.ReducesTo [0, 1] S_
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x256_S8x256_0_0 : ∀ a, (![0, 0] : Fin 2 → Nat) a + S8x256.size a ≤ S8x256.size a
  h_S8x256 : 0 < S8x256.numel
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reduces_S8x256_S8 : S8x256.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  slices_S8x128_S1x1_0_0 : S8x128.Slices ![0, 0] S1x1
  shapeCasts_S1x1_S_ : S1x1.ShapeCasts S_
  gather_S32x10_S32x1x1_S32x1_n_1_0_0_1_2_11_wf : GatherDims.WF S32x10 S32x1x1 S32x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S32x2048.size a
  hwx0_0 : ∀ i : grid0.Coords, EltTy.bits .f32 = 32 ∨ (Rect.block (s := S32x2048) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S32x2048.size a
  hwx0_1 : ∀ i : grid0.Coords, EltTy.bits .f32 = 32 ∨ (Rect.block (s := S32x2048) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)

variable [Facts₀]

def gather_S32x10_S32x1x1_S32x1_n_1_0_0_1_2_11 : GatherDims S32x10 S32x1x1 S32x1 where
  offsetDims := []
  collapsedSliceDims := [1]
  operandBatchingDims := [0]
  startIndicesBatchingDims := [0]
  startIndexMap := [1]
  indexVectorDim := 2
  sliceSizes := ![1, 1]
  wf := gather_S32x10_S32x1x1_S32x1_n_1_0_0_1_2_11_wf

abbrev win0_0 : Pipeline.Window sig grid0 :=
  Pipeline.Window.ofSpec (Memref.whole main_arg0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x2048 : Shape := ⟨2, ![32, 2048]⟩
abbrev S32x10 : Shape := ⟨2, ![32, 10]⟩
abbrev S32 : Shape := ⟨1, ![32]⟩
abbrev S_ : Shape := ⟨0, ![]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩
abbrev S32x2048x1 : Shape := ⟨3, ![32, 2048, 1]⟩
abbrev S32x1x2048 : Shape := ⟨3, ![32, 1, 2048]⟩
abbrev S32x2048x2048 : Shape := ⟨3, ![32, 2048, 2048]⟩

abbrev nBuf : Space → Nat
  | .hbm => 66
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x10, .f32⟩
  | .hbm, ⟨2, _⟩ => ⟨S32, .i32⟩
  | .hbm, ⟨3, _⟩ => ⟨S_, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32x1, .f32⟩
  | .hbm, ⟨9, _⟩ => ⟨S32x10, .f32⟩
  | .hbm, ⟨10, _⟩ => ⟨S32x10, .f32⟩
  | .hbm, ⟨11, _⟩ => ⟨S32x10, .f32⟩
  | .hbm, ⟨12, _⟩ => ⟨S_, .f32⟩
  | .hbm, ⟨13, _⟩ => ⟨S32, .f32⟩
  | .hbm, ⟨14, _⟩ => ⟨S32x1, .f32⟩
  | .hbm, ⟨15, _⟩ => ⟨S32x1, .f32⟩
  | .hbm, ⟨16, _⟩ => ⟨S32x10, .f32⟩
  | .hbm, ⟨17, _⟩ => ⟨S32x10, .f32⟩
  | .hbm, ⟨18, _⟩ => ⟨S32x1, .i32⟩
  | .hbm, ⟨19, _⟩ => ⟨S_, .i32⟩
  | .hbm, ⟨20, _⟩ => ⟨S32x1, .i32⟩
  | .hbm, ⟨21, _⟩ => ⟨S32x1, .i1⟩
  | .hbm, ⟨22, _⟩ => ⟨S_, .i32⟩
  | .hbm, ⟨23, _⟩ => ⟨S32x1, .i32⟩
  | .hbm, ⟨24, _⟩ => ⟨S32x1, .i32⟩
  | .hbm, ⟨25, _⟩ => ⟨S32x1, .i32⟩
  | .hbm, ⟨26, _⟩ => ⟨S32x1x1, .i32⟩
  | .hbm, ⟨27, _⟩ => ⟨S1, .i32⟩
  | .hbm, ⟨28, _⟩ => ⟨S_, .i32⟩
  | .hbm, ⟨29, _⟩ => ⟨S32x1x1, .i32⟩
  | .hbm, ⟨30, _⟩ => ⟨S32x1x1, .i1⟩
  | .hbm, ⟨31, _⟩ => ⟨S1x1x1, .i32⟩
  | .hbm, ⟨32, _⟩ => ⟨S32x1x1, .i32⟩
  | .hbm, ⟨33, _⟩ => ⟨S32x1x1, .i1⟩
  | .hbm, ⟨34, _⟩ => ⟨S32x1x1, .i1⟩
  | .hbm, ⟨35, _⟩ => ⟨S_, .i1⟩
  | .hbm, ⟨36, _⟩ => ⟨S32x1, .i1⟩
  | .hbm, ⟨37, _⟩ => ⟨S32x1, .f32⟩
  | .hbm, ⟨38, _⟩ => ⟨S_, .f32⟩
  | .hbm, ⟨39, _⟩ => ⟨S32x1, .f32⟩
  | .hbm, ⟨40, _⟩ => ⟨S32x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S32x2048, .f32⟩
  | .hbm, ⟨48, _⟩ => ⟨S32x2048, .f32⟩
  | .hbm, ⟨49, _⟩ => ⟨S32x2048, .f32⟩
  | .hbm, ⟨50, _⟩ => ⟨S32x2048x1, .f32⟩
  | .hbm, ⟨51, _⟩ => ⟨S32x1x2048, .f32⟩
  | .hbm, ⟨52, _⟩ => ⟨S32x2048x2048, .f32⟩
  | .hbm, ⟨53, _⟩ => ⟨S32x2048x2048, .f32⟩
  | .hbm, ⟨54, _⟩ => ⟨S32x2048x2048, .f32⟩
  | .hbm, ⟨55, _⟩ => ⟨S32x2048x2048, .f32⟩
  | .hbm, ⟨56, _⟩ => ⟨S_, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_cst : Ref sig .tc := ⟨.hbm, 41, rfl⟩
abbrev main_v3 : Ref sig .tc := ⟨.hbm, 42, rfl⟩
abbrev main_cst_0 : Ref sig .tc := ⟨.hbm, 43, rfl⟩
abbrev main_v4 : Ref sig .tc := ⟨.hbm, 44, rfl⟩
abbrev main_v5 : Ref sig .tc := ⟨.hbm, 45, rfl⟩
abbrev main_cst_1 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_2 : Ref sig .tc := ⟨.hbm, 56, rfl⟩
abbrev main_v15 : Ref sig .tc := ⟨.hbm, 57, rfl⟩
abbrev main_cst_3 : Ref sig .tc := ⟨.hbm, 58, rfl⟩
abbrev main_v16 : Ref sig .tc := ⟨.hbm, 59, rfl⟩
abbrev main_v17 : Ref sig .tc := ⟨.hbm, 60, rfl⟩
abbrev main_cst_4 : Ref sig .tc := ⟨.hbm, 61, rfl⟩
abbrev main_v18 : Ref sig .tc := ⟨.hbm, 62, rfl⟩
abbrev main_cst_5 : Ref sig .tc := ⟨.hbm, 63, rfl⟩
abbrev main_v19 : Ref sig .tc := ⟨.hbm, 64, rfl⟩
abbrev main_v20 : Ref sig .tc := ⟨.hbm, 65, rfl⟩

abbrev nD : Nat := 1
abbrev τ : Topo := Topo.v7x

variable {F : FTy → Type} [FloatOps F]

class Facts₀ : Prop where
  reducesTo_S32x10_S32_d1 : S32x10.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x10_0_1 : S32x1.BroadcastsInDim S32x10 (![0, 1] : Fin 2 → Fin S32x10.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  reducesTo_S32x1_S_d0_1 : S32x1.ReducesTo [0, 1] S_
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  reducesTo_S32x2048x2048_S32_d1_2 : S32x2048x2048.ReducesTo [1, 2] S32
  reducesTo_S32_S_d0 : S32.ReducesTo [0] S_
  gather_S32x10_S32x1x1_S32x1_n_1_0_0_1_2_11_wf : GatherDims.WF S32x10 S32x1x1 S32x1 [] [1] [0] [1] [0] 2 ![1, 1]

variable [Facts₀]

def gather_S32x10_S32x1x1_S32x1_n_1_0_0_1_2_11 : GatherDims S32x10 S32x1x1 S32x1 where
  offsetDims := []
  collapsedSliceDims := [1]
  operandBatchingDims := [0]
  startIndicesBatchingDims := [0]
  startIndexMap := [1]
  indexVectorDim := 2
  sliceSizes := ![1, 1]
  wf := gather_S32x10_S32x1x1_S32x1_n_1_0_0_1_2_11_wf

class Facts : Prop extends Facts₀ where

variable [Facts]
-- ==== Proof.K.Base.lean ====
/-
  What the frame proof of the Gini kernel's program shares: the contents the region is entered from (the host
  operations of the cross-entropy before it), @main as host lines, the region, host lines; each window's block at a
  grid point; the two conditions of the body (the first point resets the running total, the last point stores it to
  the output block) in closed form over the 4 × 8 × 8 grid; where the output window is idle.
-/
import proofs.«134412_j23502061044472_1_alg».proof.Proof.Gen.Kernel.Launch
import proofs.«134412_j23502061044472_1_alg».proof.Proof.Gen.Kernel.Skeleton
import proofs.«134412_j23502061044472_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations of the cross-entropy. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the lines after it, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first grid point" as the body computes it: all three coordinates are zero. -/
abbrev cond0_0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last grid point" as the body computes it: the coordinates are (3, 7, 7). -/
abbrev cond0_1 (i : grid0.Coords) : Prop := k0_cond2 i = 1#1
/-- It holds at point 255 only. -/
theorem hcond0_1 : ∀ t : Fin cfg0.N, cond0_1 (grid0.coords t) ↔ t.val = 255 :=
  (by decide +kernel : ∀ t : Fin grid0.N, cond0_1 (grid0.coords t) ↔ t.val = 255)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the body stores nothing into the output block, -/
theorem idleAt0_2 : ∀ t : Fin cfg0.N, ¬cond0_1 (grid0.coords t) → cfg0.idle 2 (grid0.coords t) = true := by decide +kernel
/-- and the pipeline does not write it back there; -/
theorem noFlush0_2 : ∀ t : Fin cfg0.N, ¬cond0_1 (grid0.coords t) → (cfg0.win 2).flush t = false := by decide +kernel
/-- at the last point it does store into it. -/
theorem liveAt0_2 : ∀ t : Fin cfg0.N, cond0_1 (grid0.coords t) → cfg0.idle 2 (grid0.coords t) = false := by decide +kernel

/-! ## The memrefs the body is called on -/

/-- One staging buffer of the output window, through which its contents are stated. -/
abbrev VO0_2 : View sig .tc .vmem S8x128 .f32 := (Memref.whole cc0_stg2_0 : Memref sig .tc .vmem S8x128 .f32).view
abbrev ms0_0 (t : Fin cfg0.N) : Memref sig .tc .vmem S8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The scratch that carries the running total between points. -/
abbrev scM0_0 : Memref sig .tc .vmem S8x128 .f32 := Memref.whole cc0_scratch0
abbrev VS0_0 : View sig .tc .vmem S8x128 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The body at the FIRST grid point (it resets the running total, adds the tile's sum, and leaves the output block
  alone): run on whole staging memrefs, the inputs' at their contents, the output's at contents handed back
  untouched, the scratch at anything; it ends with the scratch's two stores written.
-/
import proofs.«134412_j23502061044472_1_alg».proof.Proof.K.Base

-- membership in a rectangle of these extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the scratch at the first point, with the proof that the body runs there. -/
noncomputable def kernelRun0_A (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S8x256 .f32) (x1 : Vec F S8x256 .f32) :
    Σ' (L2 : List (View.Piece (Elt F) S8x128 .f32)), { LS0 : List (View.Piece (Elt F) S8x128 .f32) //
      ∀ (xi2 : Vec F S8x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__gini_sum_kernel i arg3 harg3 arg4 harg4 arg5 harg5 arg6 harg6) K } := by
  refine ⟨[], ?_, fun xi2 E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.RunB.lean ====
/-
  The body at a MIDDLE grid point (neither first nor last): it adds the tile's sum to the running total the point
  before left in the scratch, and leaves the output block alone.
-/
import proofs.«134412_j23502061044472_1_alg».proof.Proof.K.RunA

-- membership in a rectangle of these extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the scratch at a middle point, with the proof that the body runs there. -/
noncomputable def kernelRun0_B (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S8x256 .f32) (x1 : Vec F S8x256 .f32) (xs0 : Vec F S8x128 .f32) :
    Σ' (L2 : List (View.Piece (Elt F) S8x128 .f32)), { LS0 : List (View.Piece (Elt F) S8x128 .f32) //
      ∀ (xi2 : Vec F S8x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__gini_sum_kernel i arg3 harg3 arg4 harg4 arg5 harg5 arg6 harg6) K } := by
  refine ⟨[], ?_, fun xi2 E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.RunC.lean ====
/-
  The body at the LAST grid point: it adds the tile's sum to the running total the point before left in the scratch,
  then copies the scratch into the output block.
-/
import proofs.«134412_j23502061044472_1_alg».proof.Proof.K.RunB

-- membership in a rectangle of these extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block and in the scratch at the last point, with the proof that
    the body runs there. -/
noncomputable def kernelRun0_C (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) :
    Σ' (L2 : List (View.Piece (Elt F) S8x128 .f32)), { LS0 : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__gini_sum_kernel i arg3 harg3 arg4 harg4 arg5 harg5 arg6 harg6) K } := by
  refine ⟨?_, ?_, fun E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.K.Split.lean ====
/-
  The pipeline's arrays against the buffers behind them. Two of the three windows read ONE array (the attention
  matrix, through two index maps), so the pipeline holds that array twice, at the two halves of the full share, and the
  output array once, whole. The buffers behind the arrays are two: the attention matrix and the output. Splitting the
  full share of the first into its halves, and joining them again, is the whole of the matter.
-/
import proofs.«134412_j23502061044472_1_alg».proof.Proof.Gen.Kernel.Launch
import Idealize.ShloMosaic.Lib.Pipeline.Launch

-- membership in a rectangle of these extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- For proof data that hold the attention matrix at the left half share through window 0 and at the right half
    through window 1: the pipeline's arrays at contents `A` are the two buffers behind them, each whole at the full
    share, at contents `G`, when `A` reads `G` at each window's array. -/
theorem arrays_iff_arrBufs {c : Dev nD} (dat : Dat τ (Elt F) Unit ℕ (UR sig nD τ) ℕ cfg0 c)
    (hq0 : dat.q 0 = fullShare.left) (hq1 : dat.q 1 = fullShare.right)
    (A : (w : Fin cfg0.W) → Buf (Elt F) ((cfg0.win w).arr.view.loc (c.tc : Thread nD τ)))
    (G : (b : Ref sig .tc) → Buf (Elt F) ((c.tc : Thread nD τ).loc b))
    (h0 : A 0 = G main_arg0) (h1 : A 1 = G main_arg0) (h2 : A 2 = G main_v6) :
    (dat.arrays A : sProp 𝕄) ⊣⊢ Pipeline.arrBufs spec0 c G := by
  classical
  refine BIBase.BiEntails.of_eq ?_
  unfold Dat.arrays Pipeline.arrBufs
  -- the left side, window by window
  rw [Gen.bigSep_W0]
  -- the shares: an input window holds its own, the output window the full one
  have s0 : dat.share 0 = fullShare.left := by
    unfold Dat.share; rw [← hq0]; exact if_neg (by decide)
  have s1 : dat.share 1 = fullShare.right := by
    unfold Dat.share; rw [← hq1]; exact if_neg (by decide)
  have s2 : dat.share 2 = fullShare := by
    unfold Dat.share; exact if_pos (by decide)
  -- each window's array is a whole buffer, so its element set is everything
  rw [s0, s1, s2, h0, h1, h2, (Gen.arr_whole0 0).set_eq_univ, (Gen.arr_whole0 2).set_eq_univ]
  -- the right side: the three windows sit on two buffers
  have hI : Finset.univ.image (Pipeline.arrRef spec0) = {main_arg0, main_v6} := by decide
  rw [hI, bigSep_insert (by decide), bigSep_singleton]
  -- the full share of the array the two input windows read is its left half beside its right half
  have hs : ((c.tc : Thread nD τ).loc main_arg0 ↦{fullShare} G main_arg0 : sProp 𝕄)
      ⊣⊢ iprop(((c.tc : Thread nD τ).loc main_arg0 ↦{fullShare.left} G main_arg0)
        ∗ ((c.tc : Thread nD τ).loc main_arg0 ↦{fullShare.right} G main_arg0)) :=
    pointsTo_share (PosShare.mem_left_op_right fullShare)
  rw [Idealize.SL.BI.equiv_iff.mp ⟨hs.mp, hs.mpr⟩]
  -- what is left is the bracketing of the three conjuncts
  exact (Idealize.SL.BI.equiv_iff.mp ⟨Idealize.SL.BI.sep_assoc, Idealize.SL.BI.sep_assoc'⟩).symm

end Cert.Kernel.Fr

end
-- ==== Proof.LibSharedArrayLaunch.lean ====
/-
  A pallas_call whose windows SHARE an array (one array handed to the kernel through several input
  windows), with host operations before and after it.

  The library's frame run around a region asks that the windows' arrays be pairwise distinct, because it
  hands every array to the pipeline at the full share. Here the certificate says instead how the buffers
  behind the arrays, each whole at the full share, make the pipeline's arrays at entry (`hsplit`: an array
  read through two windows is split into two shares), and how the arrays at exit make those buffers again
  (`hjoin`, `hjoin'`), at an exit valuation `Wx` that agrees with the entry contents off the arrays. The
  lines after the region then run on whole buffers, and the final state has every array at what the
  write-backs leave and every other unscoped buffer at the lines' results from `Wx`.
-/
import Idealize.ShloMosaic.Lib.Pipeline.FrameSuffix

noncomputable section

namespace SharedArrayLaunch

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- The buffers a line after the region may touch, held at `Wv`, are the distinct buffers behind the windows' arrays
    and the buffers that bypass the region, each whole at the full share at `Wv`. No window's array is a bypassing
    buffer, so the set is a disjoint union; nothing is asked of how many windows read one array. -/
theorem held_tailRefs_arrBufs {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- THE FRAME RUN around a region whose windows may share arrays, with a tracking invariant. -/
theorem θ_run_frame_around_track_shared
    (hcell : Function.Injective (cellOf (nD := nD) (τ := τ) cfgs))
    (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄)
      ⊢ (dats p c).arrays ((dats p c).arrAt · 0))
    (hjoin : ∀ c, ((dats p c).arrays ((dats p c).arrAt · (cfgs p).N) : sProp 𝕄)
      ⊢ arrBufs (cfgs p).spec c (fun b => Wx c (Proc.devRef .tc b)))
    (hjoin' : ∀ c, (arrBufs (cfgs p).spec c (fun b => Wx c (Proc.devRef .tc b)) : sProp 𝕄)
      ⊢ (dats p c).arrays ((dats p c).arrAt · (cfgs p).N))
    (hWx : ∀ c, ∀ b ∈ restRefs sig (cfgs p).spec, Wx c (Proc.devRef .tc b) = V₀ c (Proc.devRef .tc b))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (fun c b => StableHlo.after opss.flatten (Wx c) (Proc.devRef .tc b))) := by
  classical
  -- the bypassing buffers hold the same at the exit valuation as at entry: the region does not touch them
  have hZ : ∀ c, (unscopedRestP (Ix := Unit) (Name := ℕ) (U := UR sig nD τ) (Lvl := ℕ) Prefetch.none (cfgs p).spec c
        (fun b => Wx c (Proc.devRef .tc b)) : sProp 𝕄)
      = unscopedRestP Prefetch.none (cfgs p).spec c (fun b => V₀ c (Proc.devRef .tc b)) := fun c => by
    unfold unscopedRestP
    exact bigSep_congr fun b hb => by dsimp only; rw [hWx c b (Finset.mem_sdiff.mp hb).1]
  -- the lines write no array, so the buffers behind the arrays hold after the lines what they held at the exit
  have hA : ∀ c, (arrBufs (Ix := Unit) (Name := ℕ) (U := UR sig nD τ) (Lvl := ℕ) (cfgs p).spec c
        (fun b => StableHlo.after opss.flatten (Wx c) (Proc.devRef .tc b)) : sProp 𝕄)
      = arrBufs (cfgs p).spec c (fun b => Wx c (Proc.devRef .tc b)) := fun c => by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop'⟩ := List.mem_flatten.mp hop
    exact hkeep ops hops op hop' w
  -- the region's exit, read as the buffers the lines run within, at the exit valuation
  have hentry : ∀ c, iprop(boundary (c.tc : Thread nD τ) ∗ ((dats p c).arrays ((dats p c).arrAt · (cfgs p).N) : sProp 𝕄)
        ∗ unscopedRestP Prefetch.none (cfgs p).spec c (fun b => V₀ c (Proc.devRef .tc b)))
      ⊢ iprop(boundary (c.tc : Thread nD τ)
        ∗ (StableHlo.held (c.tc : Thread nD τ) (tailRefs sig Prefetch.none (cfgs p).spec) (Wx c) : sProp 𝕄)) := fun c => by
    rw [held_tailRefs_arrBufs, hZ c]
    iintro ⟨Hb, Ha, HZ⟩
    isplitl [Hb]; · iexact Hb
    isplitl [Ha]; · iapply (hjoin c); iexact Ha
    iexact HZ
  -- and those buffers after the lines, read back as the pipeline's arrays and the bypassing buffers
  have hexit : ∀ c, (StableHlo.held (c.tc : Thread nD τ) (tailRefs sig Prefetch.none (cfgs p).spec)
        (StableHlo.after opss.flatten (Wx c)) : sProp 𝕄)
      ⊢ iprop((dats p c).arrays ((dats p c).arrAt · (cfgs p).N)
        ∗ unscopedRestP Prefetch.none (cfgs p).spec c (fun b => StableHlo.after opss.flatten (Wx c) (Proc.devRef .tc b))) := fun c => by
    rw [held_tailRefs_arrBufs, hA c]
    iintro ⟨Ha, HZ⟩
    isplitl [Ha]; · iapply (hjoin' c); iexact Ha
    iexact HZ
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]
      · iapply (show (ownU _ : sProp 𝕄) ⊢ BI.own (emb₁ (initOf (cells cfgs hcell) (launchToks cfgs hcell))) from .rfl); iexact Hu
      · iapply (show (BI.emp : sProp 𝕄) ⊢ bigSep Finset.univ (fun _ : Dev nD => (BI.emp : sProp 𝕄)) from by rw [BI.bigSep_emp_const])
        iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => unscopedRestP (Ix := Unit) (Name := ℕ) (U := UR sig nD τ) (Lvl := ℕ) Prefetch.none (cfgs p).spec c
      (fun b => StableHlo.after opss.flatten (Wx c) (Proc.devRef .tc b)))
    (hX := fun c => by
      iintro ⟨HU, -, -, -, Hp, -⟩; imodintro
      isplitl [Hp]; · iexists _; iexact Hp
      iexact HU)
    (hin := fun c => by
      refine Entails.trans ?_ (hin c)
      unfold ΦA
      iintro ⟨Hp, -, Hr⟩
      isplitl [Hr] <;> iassumption)
    (hout := fun c => by
      refine (hout c).trans ?_
      rw [ownSems0_none]; unfold ΦA
      iintro ⟨Hr, Hp⟩
      isplitl [Hp]; · iexact Hp
      isplitr; · iempintro
      iexact Hr)
    (htail := fun c Q' => by
      rw [← List.append_nil (opss.map StableHlo.seq)]
      iintro ⟨Hk, Hb⟩
      ihave Hb' := (hentry c) $$ Hb
      iapply (wp_seqs_then (fun q => (cfgs q).toPCfg (Val := Val)) defs₀ 𝒱₀ c (tailRefs sig Prefetch.none (cfgs p).spec) [] opss hsub hfresh (Wx c)) $$ Hb'
      iintro Hb
      rw [chain_nil, wp_pure]
      imodintro
      iapply Hk
      icases Hb with ⟨-, H⟩
      iapply (hexit c); iexact H)
    (QY := fun c s => ∀ b ∈ restRefsP sig Prefetch.none (cfgs p).spec,
      s.mem ((c.tc : Thread nD τ).loc b) = StableHlo.after opss.flatten (Wx c) (Proc.devRef .tc b))
    (hY := fun c s' => by
      iintro ⟨-, HU, HSI⟩
      unfold unscopedRestP
      imodintro
      iapply (pointsTo_read_all (restRefsP sig Prefetch.none (cfgs p).spec) (fun b => (c.tc : Thread nD τ).loc b)
        (fun b => StableHlo.after opss.flatten (Wx c) (Proc.devRef .tc b)) s')
      isplitl [HU] <;> iassumption)
    (hQ := fun s h c => ⟨(h c).1, rest_of_restP Prefetch.none (cfgs p).spec _ c _ s (fun k => k.elim0) (h c).2.1 (h c).2.2⟩)

end SharedArrayLaunch

end
-- ==== Proof.K.Frame.lean ====
/-
  The frame of the Gini kernel's program: what the scratch (the running total) and the output block hold after each
  grid point, the pipeline's proof data, the body obligation at every point by the three cases (first point, a middle
  point, last point), and the run of @main: host lines, the region, host lines, with the attention matrix read through
  two windows at the two halves of its share.
-/
import proofs.«134412_j23502061044472_1_alg».proof.Proof.K.RunC
import proofs.«134412_j23502061044472_1_alg».proof.Proof.K.Split
import proofs.«134412_j23502061044472_1_alg».proof.Proof.LibSharedArrayLaunch

-- membership in a rectangle of these extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first point nothing is stored into the output block: a placeholder nothing consults. -/
def out0_A_2 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S8x256 .f32) (x1 : Vec F S8x256 .f32) : Vec F S8x128 .f32 :=
  VO0_2.read (Elt F) (VO0_2.writes (Elt F) VO0_2.junk (kernelRun0_A c i arg3 harg3 arg4 harg4 arg5 harg5 arg6 harg6 hc0 hc1 x0 x1).1)

/-- The first point's stores cover the scratch. -/
theorem scover0_A_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S8x256 .f32) (x1 : Vec F S8x256 .f32) (y : S8x128.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S8x128.size (by sl_kernel_rfl) y

/-- What the first point leaves in the scratch. -/
def sout0_A_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S8x256 .f32) (x1 : Vec F S8x256 .f32) : Vec F S8x128 .f32 :=
  VS0_0.read (Elt F) (VS0_0.writes (Elt F) VS0_0.junk (kernelRun0_A c i arg3 harg3 arg4 harg4 arg5 harg5 arg6 harg6 hc0 hc1 x0 x1).2.1)

/-- At a middle point nothing is stored into the output block: a placeholder nothing consults. -/
def out0_B_2 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S8x256 .f32) (x1 : Vec F S8x256 .f32) (xs0 : Vec F S8x128 .f32) : Vec F S8x128 .f32 :=
  VO0_2.read (Elt F) (VO0_2.writes (Elt F) VO0_2.junk (kernelRun0_B c i arg3 harg3 arg4 harg4 arg5 harg5 arg6 harg6 hc0 hc1 x0 x1 xs0).1)

/-- A middle point's store covers the scratch. -/
theorem scover0_B_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S8x256 .f32) (x1 : Vec F S8x256 .f32) (xs0 : Vec F S8x128 .f32) (y : S8x128.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S8x128.size (by sl_kernel_rfl) y

/-- What a middle point leaves in the scratch. -/
def sout0_B_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S8x256 .f32) (x1 : Vec F S8x256 .f32) (xs0 : Vec F S8x128 .f32) : Vec F S8x128 .f32 :=
  VS0_0.read (Elt F) (VS0_0.writes (Elt F) VS0_0.junk (kernelRun0_B c i arg3 harg3 arg4 harg4 arg5 harg5 arg6 harg6 hc0 hc1 x0 x1 xs0).2.1)

/-- The last point's store covers the output block. -/
theorem cover0_C_2 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) (y : S8x128.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S8x128.size (by sl_kernel_rfl) y

/-- What the last point leaves in the output block. -/
def out0_C_2 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) : Vec F S8x128 .f32 :=
  VO0_2.read (Elt F) (VO0_2.writes (Elt F) VO0_2.junk (kernelRun0_C c i arg3 harg3 arg4 harg4 arg5 harg5 arg6 harg6 hc0 hc1 x0 x1 xs0).1)

/-- The last point's store covers the scratch. -/
theorem scover0_C_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) (y : S8x128.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S8x128.size (by sl_kernel_rfl) y

/-- What the last point leaves in the scratch. -/
def sout0_C_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) : Vec F S8x128 .f32 :=
  VS0_0.read (Elt F) (VS0_0.writes (Elt F) VS0_0.junk (kernelRun0_C c i arg3 harg3 arg4 harg4 arg5 harg5 arg6 harg6 hc0 hc1 x0 x1 xs0).2.1)

/-! ## What the output block and the scratch hold after each point -/

/-- THE ACCUMULATION: after the body at position `n`, the output block's staging buffer and the scratch (a pair):
    point 0 is the first-point case; point 255 the last-point case over what point 254 left in the scratch; every
    other point the middle case over what the point before left. -/
def outsAt0 (c : Dev nD) : (n : ℕ) → n < cfg0.N → Vec F S8x128 .f32 × Vec F S8x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬((0 : ℕ) = 255) by decide)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬((0 : ℕ) = 255) by decide)) (iblk m c 0 ⟨0, hn⟩) (iblk m c 1 ⟨0, hn⟩))
  | n + 1, hn =>
    if h1 : n + 1 = 255 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) ((hcond0_1 ⟨n + 1, hn⟩).mpr h1) (iblk m c 0 ⟨n + 1, hn⟩) (iblk m c 1 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk m c 0 ⟨n + 1, hn⟩) (iblk m c 1 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at the first point. -/
theorem outsAt0_A (c : Dev nD) (t : Fin cfg0.N) (h0 : t.val = 0) (h1 : ¬t.val = 255) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 255) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 255) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data: the arrays as the region finds them; after the body each input's buffer at its block and the
    output's at `outsAt0`; the invariant `PhiS`; nothing owed; the attention matrix held at the left half share through
    window 0 and at the right half through window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which of the three cases the
    point is in; the invariant hands the body the scratch at what the point before left (at anything at the first
    point) and takes it back at this point's contents; off the last point the output's buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val = 0
  · have h1 : ¬t.val = 255 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _)
      iexact Hg
    isplitl [Ho]; · iexact Ho
    isplitl [H0]; · iexact H0
    isplitl [H1]; · iexact H1
    iexists _; iexact H2
  · by_cases h1 : t.val = 255
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run -/

/-- The buffer contents at the region's exit: the output array at what the last point's write-back leaves, every other
    buffer as the region found it (the attention matrix is only read). -/
def Wx (c : Dev nD) : Valuation τ sig (Elt F) :=
  Function.update (V0 m c) (Proc.devRef .tc main_v6) ((dats m 0 c).arrAt 2 cfg0.N)

theorem Wx_v6 (c : Dev nD) : Wx m c (Proc.devRef .tc main_v6) = (dats m 0 c).arrAt 2 cfg0.N := by
  unfold Wx; exact Function.update_self _ _ _

theorem Wx_of_ne (c : Dev nD) (b : Ref sig .tc) (hb : b ≠ main_v6) : Wx m c (Proc.devRef .tc b) = V0 m c (Proc.devRef .tc b) := by
  unfold Wx; exact Function.update_of_ne (fun e => hb (Proc.devRef_injective _ e)) _ _

-- the launch theorem's implicit arguments are found by unifying its conclusion with this one
set_option backward.isDefEq.respectTransparency.types false in
/-- Every weakly fair execution of @main terminates; every final state has each array of the pipeline at what the
    write-backs leave and every other unscoped buffer at what the lines after the region compute from the exit contents. -/
theorem run_main : θ_run defs (onTc (τ := τ) (main (F := F))) (s₀ m ρ)
    (Pipeline.FramePost cfgs (dats m) 0 (fun c b => StableHlo.after (List.flatten [hostOps1]) (Wx m c) (Proc.devRef .tc b))) :=
  SharedArrayLaunch.θ_run_frame_around_track_shared cfgs (dats m) (0 : Fin 1) defs₀ Variants.none
    cellOf_inj winFacts₀0 block_pos0 arr_whole0 stage_whole0 m ρ main
    (hbody := fun c => (body_obligation m c).loose) (howed := fun _ _ => rfl)
    (V₀ := V0 m) (Wx := Wx m) (opss := [hostOps1]) (hsub := sfx_sub) (hfresh := sfx_fresh) (hkeep := sfx_keeps)
    (hmain := hmain m Variants.none)
    (hsplit := fun c => (arrays_iff_arrBufs (dats m 0 c) rfl rfl _ _ (A_eq m c 0) (A_eq m c 1) (A_eq m c 2)).2)
    (hjoin := fun c => (arrays_iff_arrBufs (dats m 0 c) rfl rfl _ _
      (((dats m 0 c).arrAt_in 0 rfl _).trans ((A_eq m c 0).trans (Wx_of_ne m c main_arg0 (by decide)).symm))
      (((dats m 0 c).arrAt_in 1 rfl _).trans ((A_eq m c 1).trans (Wx_of_ne m c main_arg0 (by decide)).symm))
      (Wx_v6 m c).symm).1)
    (hjoin' := fun c => (arrays_iff_arrBufs (dats m 0 c) rfl rfl _ _
      (((dats m 0 c).arrAt_in 0 rfl _).trans ((A_eq m c 0).trans (Wx_of_ne m c main_arg0 (by decide)).symm))
      (((dats m 0 c).arrAt_in 1 rfl _).trans ((A_eq m c 1).trans (Wx_of_ne m c main_arg0 (by decide)).symm))
      (Wx_v6 m c).symm).2)
    (hWx := fun c b hb => Wx_of_ne m c b (fun e => by
      subst e
      exact (Finset.mem_sdiff.mp hb).2 (Finset.mem_image.mpr ⟨2, Finset.mem_univ _, rfl⟩)))
    (hin := hin m) (hout := hout m)

end Cert.Kernel.Fr

end
-- ==== Proof.K.FrameClaim.lean ====
/-
  The frame claim of the Gini kernel's program, from its run: the attention matrix is an input array of the pipeline
  (never written back), and the logits and the labels bypass the region and are written by no host operation.
-/
import proofs.«134412_j23502061044472_1_alg».proof.Proof.K.Frame

-- membership in a rectangle of these extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines after the region write neither the logits nor the labels, and the region leaves them as it found them. -/
theorem end_main_arg1 (c : Dev nD) :
    StableHlo.after (List.flatten [hostOps1]) (Wx m c) (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Wx_of_ne m c main_arg1 (by decide)).trans (V_main_arg1 m c))

theorem end_main_arg2 (c : Dev nD) :
    StableHlo.after (List.flatten [hostOps1]) (Wx m c) (Proc.devRef .tc main_arg2) = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Wx_of_ne m c main_arg2 (by decide)).trans (V_main_arg2 m c))

/-- The final state of a run keeps the three arguments. -/
theorem args_kept (r : PUnit × MemSt nD τ sig (Elt F))
    (h : Pipeline.FramePost cfgs (dats m) 0 (fun c b => StableHlo.after (List.flatten [hostOps1]) (Wx m c) (Proc.devRef .tc b)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
   ((h c).2 main_arg1 (by decide)).trans (end_main_arg1 m c),
   ((h c).2 main_arg2 (by decide)).trans (end_main_arg2 m c)⟩

/-- THE FRAME: every weakly fair execution of @main terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m r h c) (run_main m ρ)

end Cert.Kernel.Fr

end
-- ==== Proof.KI.Base.lean ====
/-
  What the frame proof of the Gini kernel's program shares: the contents the region is entered from (the host
  operations of the cross-entropy before it), @main as host lines, the region, host lines; each window's block at a
  grid point; the two conditions of the body (the first point resets the running total, the last point stores it to
  the output block) in closed form over the 4 × 8 × 8 grid; where the output window is idle.
-/
import proofs.«134412_j23502061044472_1_alg».proof.Proof.Gen.KernelIdeal.Launch
import proofs.«134412_j23502061044472_1_alg».proof.Proof.Gen.KernelIdeal.Skeleton
import proofs.«134412_j23502061044472_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations of the cross-entropy. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the lines after it, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first grid point" as the body computes it: all three coordinates are zero. -/
abbrev cond0_0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last grid point" as the body computes it: the coordinates are (3, 7, 7). -/
abbrev cond0_1 (i : grid0.Coords) : Prop := k0_cond2 i = 1#1
/-- It holds at point 255 only. -/
theorem hcond0_1 : ∀ t : Fin cfg0.N, cond0_1 (grid0.coords t) ↔ t.val = 255 :=
  (by decide +kernel : ∀ t : Fin grid0.N, cond0_1 (grid0.coords t) ↔ t.val = 255)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the body stores nothing into the output block, -/
theorem idleAt0_2 : ∀ t : Fin cfg0.N, ¬cond0_1 (grid0.coords t) → cfg0.idle 2 (grid0.coords t) = true := by decide +kernel
/-- and the pipeline does not write it back there; -/
theorem noFlush0_2 : ∀ t : Fin cfg0.N, ¬cond0_1 (grid0.coords t) → (cfg0.win 2).flush t = false := by decide +kernel
/-- at the last point it does store into it. -/
theorem liveAt0_2 : ∀ t : Fin cfg0.N, cond0_1 (grid0.coords t) → cfg0.idle 2 (grid0.coords t) = false := by decide +kernel

/-! ## The memrefs the body is called on -/

/-- One staging buffer of the output window, through which its contents are stated. -/
abbrev VO0_2 : View sig .tc .vmem S8x128 .f32 := (Memref.whole cc0_stg2_0 : Memref sig .tc .vmem S8x128 .f32).view
abbrev ms0_0 (t : Fin cfg0.N) : Memref sig .tc .vmem S8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The scratch that carries the running total between points. -/
abbrev scM0_0 : Memref sig .tc .vmem S8x128 .f32 := Memref.whole cc0_scratch0
abbrev VS0_0 : View sig .tc .vmem S8x128 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The body at the FIRST grid point (it resets the running total, adds the tile's sum, and leaves the output block
  alone): run on whole staging memrefs, the inputs' at their contents, the output's at contents handed back
  untouched, the scratch at anything; it ends with the scratch's two stores written.
-/
import proofs.«134412_j23502061044472_1_alg».proof.Proof.KI.Base

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the scratch at the first point, with the proof that the body runs there. -/
noncomputable def kernelRun0_A (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S8x256 .f32) (x1 : Vec F S8x256 .f32) :
    Σ' (L2 : List (View.Piece (Elt F) S8x128 .f32)), { LS0 : List (View.Piece (Elt F) S8x128 .f32) //
      ∀ (xi2 : Vec F S8x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__gini_sum_kernel i arg3 harg3 arg4 harg4 arg5 harg5 arg6 harg6) K } := by
  refine ⟨[], ?_, fun xi2 E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunB.lean ====
/-
  The body at a MIDDLE grid point (neither first nor last): it adds the tile's sum to the running total the point
  before left in the scratch, and leaves the output block alone.
-/
import proofs.«134412_j23502061044472_1_alg».proof.Proof.KI.RunA

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the scratch at a middle point, with the proof that the body runs there. -/
noncomputable def kernelRun0_B (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S8x256 .f32) (x1 : Vec F S8x256 .f32) (xs0 : Vec F S8x128 .f32) :
    Σ' (L2 : List (View.Piece (Elt F) S8x128 .f32)), { LS0 : List (View.Piece (Elt F) S8x128 .f32) //
      ∀ (xi2 : Vec F S8x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__gini_sum_kernel i arg3 harg3 arg4 harg4 arg5 harg5 arg6 harg6) K } := by
  refine ⟨[], ?_, fun xi2 E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunC.lean ====
/-
  The body at the LAST grid point: it adds the tile's sum to the running total the point before left in the scratch,
  then copies the scratch into the output block.
-/
import proofs.«134412_j23502061044472_1_alg».proof.Proof.KI.RunB

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block and in the scratch at the last point, with the proof that
    the body runs there. -/
noncomputable def kernelRun0_C (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) :
    Σ' (L2 : List (View.Piece (Elt F) S8x128 .f32)), { LS0 : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__gini_sum_kernel i arg3 harg3 arg4 harg4 arg5 harg5 arg6 harg6) K } := by
  refine ⟨?_, ?_, fun E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.Split.lean ====
/-
  The pipeline's arrays against the buffers behind them. Two of the three windows read ONE array (the attention
  matrix, through two index maps), so the pipeline holds that array twice, at the two halves of the full share, and the
  output array once, whole. The buffers behind the arrays are two: the attention matrix and the output. Splitting the
  full share of the first into its halves, and joining them again, is the whole of the matter.
-/
import proofs.«134412_j23502061044472_1_alg».proof.Proof.Gen.KernelIdeal.Launch
import Idealize.ShloMosaic.Lib.Pipeline.Launch

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- For proof data that hold the attention matrix at the left half share through window 0 and at the right half
    through window 1: the pipeline's arrays at contents `A` are the two buffers behind them, each whole at the full
    share, at contents `G`, when `A` reads `G` at each window's array. -/
theorem arrays_iff_arrBufs {c : Dev nD} (dat : Dat τ (Elt F) Unit ℕ (UR sig nD τ) ℕ cfg0 c)
    (hq0 : dat.q 0 = fullShare.left) (hq1 : dat.q 1 = fullShare.right)
    (A : (w : Fin cfg0.W) → Buf (Elt F) ((cfg0.win w).arr.view.loc (c.tc : Thread nD τ)))
    (G : (b : Ref sig .tc) → Buf (Elt F) ((c.tc : Thread nD τ).loc b))
    (h0 : A 0 = G main_arg0) (h1 : A 1 = G main_arg0) (h2 : A 2 = G main_v6) :
    (dat.arrays A : sProp 𝕄) ⊣⊢ Pipeline.arrBufs spec0 c G := by
  classical
  refine BIBase.BiEntails.of_eq ?_
  unfold Dat.arrays Pipeline.arrBufs
  -- the left side, window by window
  rw [Gen.bigSep_W0]
  -- the shares: an input window holds its own, the output window the full one
  have s0 : dat.share 0 = fullShare.left := by
    unfold Dat.share; rw [← hq0]; exact if_neg (by decide)
  have s1 : dat.share 1 = fullShare.right := by
    unfold Dat.share; rw [← hq1]; exact if_neg (by decide)
  have s2 : dat.share 2 = fullShare := by
    unfold Dat.share; exact if_pos (by decide)
  -- each window's array is a whole buffer, so its element set is everything
  rw [s0, s1, s2, h0, h1, h2, (Gen.arr_whole0 0).set_eq_univ, (Gen.arr_whole0 2).set_eq_univ]
  -- the right side: the three windows sit on two buffers
  have hI : Finset.univ.image (Pipeline.arrRef spec0) = {main_arg0, main_v6} := by decide
  rw [hI, bigSep_insert (by decide), bigSep_singleton]
  -- the full share of the array the two input windows read is its left half beside its right half
  have hs : ((c.tc : Thread nD τ).loc main_arg0 ↦{fullShare} G main_arg0 : sProp 𝕄)
      ⊣⊢ iprop(((c.tc : Thread nD τ).loc main_arg0 ↦{fullShare.left} G main_arg0)
        ∗ ((c.tc : Thread nD τ).loc main_arg0 ↦{fullShare.right} G main_arg0)) :=
    pointsTo_share (PosShare.mem_left_op_right fullShare)
  rw [Idealize.SL.BI.equiv_iff.mp ⟨hs.mp, hs.mpr⟩]
  -- what is left is the bracketing of the three conjuncts
  exact (Idealize.SL.BI.equiv_iff.mp ⟨Idealize.SL.BI.sep_assoc, Idealize.SL.BI.sep_assoc'⟩).symm

end Cert.KernelIdeal.Fr

end
-- ==== Proof.KI.Frame.lean ====
/-
  The frame of the Gini kernel's program: what the scratch (the running total) and the output block hold after each
  grid point, the pipeline's proof data, the body obligation at every point by the three cases (first point, a middle
  point, last point), and the run of @main: host lines, the region, host lines, with the attention matrix read through
  two windows at the two halves of its share.
-/
import proofs.«134412_j23502061044472_1_alg».proof.Proof.KI.RunC
import proofs.«134412_j23502061044472_1_alg».proof.Proof.KI.Split
import proofs.«134412_j23502061044472_1_alg».proof.Proof.LibSharedArrayLaunch

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first point nothing is stored into the output block: a placeholder nothing consults. -/
def out0_A_2 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S8x256 .f32) (x1 : Vec F S8x256 .f32) : Vec F S8x128 .f32 :=
  VO0_2.read (Elt F) (VO0_2.writes (Elt F) VO0_2.junk (kernelRun0_A c i arg3 harg3 arg4 harg4 arg5 harg5 arg6 harg6 hc0 hc1 x0 x1).1)

/-- The first point's stores cover the scratch. -/
theorem scover0_A_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S8x256 .f32) (x1 : Vec F S8x256 .f32) (y : S8x128.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S8x128.size (by sl_kernel_rfl) y

/-- What the first point leaves in the scratch. -/
def sout0_A_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S8x256 .f32) (x1 : Vec F S8x256 .f32) : Vec F S8x128 .f32 :=
  VS0_0.read (Elt F) (VS0_0.writes (Elt F) VS0_0.junk (kernelRun0_A c i arg3 harg3 arg4 harg4 arg5 harg5 arg6 harg6 hc0 hc1 x0 x1).2.1)

/-- At a middle point nothing is stored into the output block: a placeholder nothing consults. -/
def out0_B_2 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S8x256 .f32) (x1 : Vec F S8x256 .f32) (xs0 : Vec F S8x128 .f32) : Vec F S8x128 .f32 :=
  VO0_2.read (Elt F) (VO0_2.writes (Elt F) VO0_2.junk (kernelRun0_B c i arg3 harg3 arg4 harg4 arg5 harg5 arg6 harg6 hc0 hc1 x0 x1 xs0).1)

/-- A middle point's store covers the scratch. -/
theorem scover0_B_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S8x256 .f32) (x1 : Vec F S8x256 .f32) (xs0 : Vec F S8x128 .f32) (y : S8x128.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S8x128.size (by sl_kernel_rfl) y

/-- What a middle point leaves in the scratch. -/
def sout0_B_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S8x256 .f32) (x1 : Vec F S8x256 .f32) (xs0 : Vec F S8x128 .f32) : Vec F S8x128 .f32 :=
  VS0_0.read (Elt F) (VS0_0.writes (Elt F) VS0_0.junk (kernelRun0_B c i arg3 harg3 arg4 harg4 arg5 harg5 arg6 harg6 hc0 hc1 x0 x1 xs0).2.1)

/-- The last point's store covers the output block. -/
theorem cover0_C_2 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) (y : S8x128.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S8x128.size (by sl_kernel_rfl) y

/-- What the last point leaves in the output block. -/
def out0_C_2 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) : Vec F S8x128 .f32 :=
  VO0_2.read (Elt F) (VO0_2.writes (Elt F) VO0_2.junk (kernelRun0_C c i arg3 harg3 arg4 harg4 arg5 harg5 arg6 harg6 hc0 hc1 x0 x1 xs0).1)

/-- The last point's store covers the scratch. -/
theorem scover0_C_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) (y : S8x128.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S8x128.size (by sl_kernel_rfl) y

/-- What the last point leaves in the scratch. -/
def sout0_C_0 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) : Vec F S8x128 .f32 :=
  VS0_0.read (Elt F) (VS0_0.writes (Elt F) VS0_0.junk (kernelRun0_C c i arg3 harg3 arg4 harg4 arg5 harg5 arg6 harg6 hc0 hc1 x0 x1 xs0).2.1)

/-! ## What the output block and the scratch hold after each point -/

/-- THE ACCUMULATION: after the body at position `n`, the output block's staging buffer and the scratch (a pair):
    point 0 is the first-point case; point 255 the last-point case over what point 254 left in the scratch; every
    other point the middle case over what the point before left. -/
def outsAt0 (c : Dev nD) : (n : ℕ) → n < cfg0.N → Vec F S8x128 .f32 × Vec F S8x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬((0 : ℕ) = 255) by decide)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬((0 : ℕ) = 255) by decide)) (iblk m c 0 ⟨0, hn⟩) (iblk m c 1 ⟨0, hn⟩))
  | n + 1, hn =>
    if h1 : n + 1 = 255 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) ((hcond0_1 ⟨n + 1, hn⟩).mpr h1) (iblk m c 0 ⟨n + 1, hn⟩) (iblk m c 1 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk m c 0 ⟨n + 1, hn⟩) (iblk m c 1 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at the first point. -/
theorem outsAt0_A (c : Dev nD) (t : Fin cfg0.N) (h0 : t.val = 0) (h1 : ¬t.val = 255) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 255) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 255) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data: the arrays as the region finds them; after the body each input's buffer at its block and the
    output's at `outsAt0`; the invariant `PhiS`; nothing owed; the attention matrix held at the left half share through
    window 0 and at the right half through window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which of the three cases the
    point is in; the invariant hands the body the scratch at what the point before left (at anything at the first
    point) and takes it back at this point's contents; off the last point the output's buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val = 0
  · have h1 : ¬t.val = 255 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _)
      iexact Hg
    isplitl [Ho]; · iexact Ho
    isplitl [H0]; · iexact H0
    isplitl [H1]; · iexact H1
    iexists _; iexact H2
  · by_cases h1 : t.val = 255
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run -/

/-- The buffer contents at the region's exit: the output array at what the last point's write-back leaves, every other
    buffer as the region found it (the attention matrix is only read). -/
def Wx (c : Dev nD) : Valuation τ sig (Elt F) :=
  Function.update (V0 m c) (Proc.devRef .tc main_v6) ((dats m 0 c).arrAt 2 cfg0.N)

theorem Wx_v6 (c : Dev nD) : Wx m c (Proc.devRef .tc main_v6) = (dats m 0 c).arrAt 2 cfg0.N := by
  unfold Wx; exact Function.update_self _ _ _

theorem Wx_of_ne (c : Dev nD) (b : Ref sig .tc) (hb : b ≠ main_v6) : Wx m c (Proc.devRef .tc b) = V0 m c (Proc.devRef .tc b) := by
  unfold Wx; exact Function.update_of_ne (fun e => hb (Proc.devRef_injective _ e)) _ _

-- the launch theorem's implicit arguments are found by unifying its conclusion with this one
set_option backward.isDefEq.respectTransparency.types false in
/-- Every weakly fair execution of @main terminates; every final state has each array of the pipeline at what the
    write-backs leave and every other unscoped buffer at what the lines after the region compute from the exit contents. -/
theorem run_main : θ_run defs (onTc (τ := τ) (main (F := F))) (s₀ m ρ)
    (Pipeline.FramePost cfgs (dats m) 0 (fun c b => StableHlo.after (List.flatten [hostOps1]) (Wx m c) (Proc.devRef .tc b))) :=
  SharedArrayLaunch.θ_run_frame_around_track_shared cfgs (dats m) (0 : Fin 1) defs₀ Variants.none
    cellOf_inj winFacts₀0 block_pos0 arr_whole0 stage_whole0 m ρ main
    (hbody := fun c => (body_obligation m c).loose) (howed := fun _ _ => rfl)
    (V₀ := V0 m) (Wx := Wx m) (opss := [hostOps1]) (hsub := sfx_sub) (hfresh := sfx_fresh) (hkeep := sfx_keeps)
    (hmain := hmain m Variants.none)
    (hsplit := fun c => (arrays_iff_arrBufs (dats m 0 c) rfl rfl _ _ (A_eq m c 0) (A_eq m c 1) (A_eq m c 2)).2)
    (hjoin := fun c => (arrays_iff_arrBufs (dats m 0 c) rfl rfl _ _
      (((dats m 0 c).arrAt_in 0 rfl _).trans ((A_eq m c 0).trans (Wx_of_ne m c main_arg0 (by decide)).symm))
      (((dats m 0 c).arrAt_in 1 rfl _).trans ((A_eq m c 1).trans (Wx_of_ne m c main_arg0 (by decide)).symm))
      (Wx_v6 m c).symm).1)
    (hjoin' := fun c => (arrays_iff_arrBufs (dats m 0 c) rfl rfl _ _
      (((dats m 0 c).arrAt_in 0 rfl _).trans ((A_eq m c 0).trans (Wx_of_ne m c main_arg0 (by decide)).symm))
      (((dats m 0 c).arrAt_in 1 rfl _).trans ((A_eq m c 1).trans (Wx_of_ne m c main_arg0 (by decide)).symm))
      (Wx_v6 m c).symm).2)
    (hWx := fun c b hb => Wx_of_ne m c b (fun e => by
      subst e
      exact (Finset.mem_sdiff.mp hb).2 (Finset.mem_image.mpr ⟨2, Finset.mem_univ _, rfl⟩)))
    (hin := hin m) (hout := hout m)

end Cert.KernelIdeal.Fr

end
-- ==== Proof.KI.Pieces.lean ====
/-
  What each case's stores amount to, as the body's payloads. At the first point the scratch is reset to the zero
  payload, read back, and overwritten by the accumulate payload over that zero; at a later point it is overwritten by
  the accumulate payload over what the point before left; at the last point the output block receives what was just
  stored into the scratch.
-/
import proofs.«134412_j23502061044472_1_alg».proof.Proof.KI.Frame
import Idealize.ShloMosaic.Lib.Pipeline.Value
import Idealize.ShloMosaic.Lib.Tactic

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The literal offset of every load and store of the body is the zero offset. -/
theorem off00_eq_zero : (![0, 0] : Fin 2 → Nat) = fun _ => 0 := funext fun a => by fin_cases a <;> rfl

/-- The first point leaves in the scratch the accumulate payload over the reset payload. -/
theorem sout0_A_0_eq (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : cond0_0 i) (hc1 : ¬cond0_1 i)
    (x0 : Vec F S8x256 .f32) (x1 : Vec F S8x256 .f32) :
    sout0_A_0 c i arg3 harg3 arg4 harg4 arg5 harg5 arg6 harg6 hc0 hc1 x0 x1 = k0_pay2 x0 x1 (k0_pay1 (F := F)) := by
  -- the scratch's two stores cover it, so it reads as their canon; the later store (the accumulate payload) is a
  -- whole-buffer store at offset zero, so the canon is its payload; the payload's third argument is the load of
  -- the scratch after the reset, which reads the reset payload; its first two are whole-buffer loads of the inputs
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S8x128) off00_eq_zero, View.readCov_unit_zero (S := S8x128) _ off00_eq_zero]
  simp only [View.readAt_eq_ld, harg3.read_unread, harg4.read_unread, View.ld_unit_zero (S := S8x256) off00_eq_zero]

/-- A middle point leaves in the scratch the accumulate payload over what it found there. -/
theorem sout0_B_0_eq (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : ¬cond0_1 i)
    (x0 : Vec F S8x256 .f32) (x1 : Vec F S8x256 .f32) (xs0 : Vec F S8x128 .f32) :
    sout0_B_0 c i arg3 harg3 arg4 harg4 arg5 harg5 arg6 harg6 hc0 hc1 x0 x1 xs0 = k0_pay2 x0 x1 xs0 := by
  -- one whole-buffer store at offset zero: the canon is its payload, over whole-buffer loads of the inputs and of
  -- the scratch as the point found it
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero off00_eq_zero]
  simp only [View.readAt_eq_ld, harg3.read_unread, harg4.read_unread, harg6.read_unread,
    View.ld_unit_zero (S := S8x256) off00_eq_zero, View.ld_unit_zero (S := S8x128) off00_eq_zero]

/-- The last point leaves in the scratch the accumulate payload over what it found there, -/
theorem sout0_C_0_eq (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) :
    sout0_C_0 c i arg3 harg3 arg4 harg4 arg5 harg5 arg6 harg6 hc0 hc1 x0 x1 xs0 = k0_pay2 x0 x1 xs0 := by
  -- as at a middle point: one whole-buffer store at offset zero
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero off00_eq_zero]
  simp only [View.readAt_eq_ld, harg3.read_unread, harg4.read_unread, harg6.read_unread,
    View.ld_unit_zero (S := S8x256) off00_eq_zero, View.ld_unit_zero (S := S8x128) off00_eq_zero]

/-- and the same in the output block. -/
theorem out0_C_2_eq (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬cond0_0 i) (hc1 : cond0_1 i)
    (x0 : Vec F S8x256 .f32) (x1 : Vec F S8x256 .f32) (xs0 : Vec F S8x128 .f32) :
    out0_C_2 c i arg3 harg3 arg4 harg4 arg5 harg5 arg6 harg6 hc0 hc1 x0 x1 xs0 = k0_pay2 x0 x1 xs0 := by
  -- the output block's one store is whole-buffer at offset zero, and its payload is the load of the scratch after
  -- the scratch's own whole-buffer store, which reads that store's payload
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero off00_eq_zero]
  simp only [View.readCov_unit_zero (S := S8x128) _ off00_eq_zero, View.readAt_eq_ld, harg3.read_unread,
    harg4.read_unread, harg6.read_unread, View.ld_unit_zero (S := S8x256) off00_eq_zero,
    View.ld_unit_zero (S := S8x128) off00_eq_zero]

end Cert.KernelIdeal.Fr

end
-- ==== Proof.KI.Payload.lean ====
/-
  The body's arithmetic at one entry of the running total. The reset payload is zero everywhere. The accumulate
  payload adds to the old total, at EVERY entry of the 8 × 128 scratch alike, the sum over the tile's 8 rows b and
  256 × 256 column pairs (p, q) of |log(x0[b,p] + ε) − log(x1[b,q] + ε)|: the three lane sums are plain sums at Ideal.
-/
import proofs.«134412_j23502061044472_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Fr

open Cert.KernelIdeal Cert.KernelIdeal.Gen
open Idealize.ShloMosaic Idealize.ShloMosaic.ValueIdx

/-- One pair's term from two tile blocks: |log(x0[b,p] + ε) − log(x1[b,q] + ε)|. -/
def pairTerm (x0 x1 : Vec Ideal S8x256 .f32) (b : Fin 8) (p q : Fin 256) : EReal :=
  FloatOps.absf (F := Ideal) (φ := .f32)
    (Ideal.log (x0 (ix2 b p) + Ideal.ofBits .f32 0x358637BD#32) - Ideal.log (x1 (ix2 b q) + Ideal.ofBits .f32 0x358637BD#32))

/-- The reset payload is zero at every entry. -/
theorem pay1_apply (y : S8x128.Idx) : (k0_pay1 (F := Ideal) y : EReal) = 0 := by
  unfold k0_pay1
  exact Ideal.ofBits_zero_f32

/-- A lane sum over the last axis of an 8 × 256 × 256 array, read at (b, p), is the sum over the last coordinate. -/
theorem red_last (v : FVec Ideal S8x256x256 .f32) (h : S8x256x256.Reduces [2] S8x256) (hφ : FKind.Formats .f32)
    (hacc : (0x00000000#32 : BitVec 32) = FKind.add.neutral .f32 hφ) (b : Fin 8) (p : Fin 256) :
    multiReduction (F := Ideal) .add [2] S8x256 v 0x00000000#32 h hφ hacc (ix2 b p) = ∑ q : Fin 256, v (ix3 b p q) := by
  refine (Ideal.multiReduction_add_single v _ h hφ hacc (ix2 b p)).trans ?_
  refine Finset.sum_congr rfl fun q _ => congrArg v (funext fun a => Fin.ext ?_)
  match a with
  | ⟨0, _⟩ => rfl
  | ⟨1, _⟩ => rfl
  | ⟨2, _⟩ => rfl

/-- A lane sum over the last axis of an 8 × 256 array, read at b, is the sum over the row. -/
theorem red_mid (v : FVec Ideal S8x256 .f32) (h : S8x256.Reduces [1] S8) (hφ : FKind.Formats .f32)
    (hacc : (0x00000000#32 : BitVec 32) = FKind.add.neutral .f32 hφ) (b : Fin 8) :
    multiReduction (F := Ideal) .add [1] S8 v 0x00000000#32 h hφ hacc (ix1 b) = ∑ p : Fin 256, v (ix2 b p) := by
  refine (Ideal.multiReduction_add_single v _ h hφ hacc (ix1 b)).trans ?_
  refine Finset.sum_congr rfl fun p _ => congrArg v (funext fun a => Fin.ext ?_)
  match a with
  | ⟨0, _⟩ => rfl
  | ⟨1, _⟩ => rfl

/-- A lane sum over the one row of a 1 × 8 array, read at the one index, is the sum over the row. -/
theorem red_row (v : FVec Ideal S1x8 .f32) (h : S1x8.Reduces [1] S1) (hφ : FKind.Formats .f32)
    (hacc : (0x00000000#32 : BitVec 32) = FKind.add.neutral .f32 hφ) (j : S1.Idx) :
    multiReduction (F := Ideal) .add [1] S1 v 0x00000000#32 h hφ hacc j = ∑ b : Fin 8, v (ix2 (0 : Fin 1) b) := by
  refine (Ideal.multiReduction_add_single v _ h hφ hacc j).trans ?_
  refine Finset.sum_congr rfl fun b _ => congrArg v (funext fun a => Fin.ext ?_)
  match a with
  | ⟨0, _⟩ =>
    have hj : (j 0).val < 1 := (j 0).isLt
    show (j 0).val = 0
    omega
  | ⟨1, _⟩ => rfl

section Layout
variable {α : Type}

/-- An 8 × 256 array viewed as 8 × 256 × 1 reads, at (b, p, u), the operand at (b, p). -/
theorem cast_col (x : S8x256.Idx → α) (h : S8x256.ShapeCasts S8x256x1) (b : Fin 8) (p : Fin 256) (u : Fin 1) :
    shapeCast S8x256x1 x h (ix3 b p u) = x (ix2 b p) :=
  shapeCast_apply x h _ _ (by
    rw [Shape.rowMajor_val_two, Shape.rowMajor_val_three]
    show b.val * 256 + p.val = (b.val * 256 + p.val) * 1 + u.val
    omega)

/-- An 8 × 256 array viewed as 8 × 1 × 256 reads, at (b, u, q), the operand at (b, q). -/
theorem cast_row (x : S8x256.Idx → α) (h : S8x256.ShapeCasts S8x1x256) (b : Fin 8) (u : Fin 1) (q : Fin 256) :
    shapeCast S8x1x256 x h (ix3 b u q) = x (ix2 b q) :=
  shapeCast_apply x h _ _ (by
    rw [Shape.rowMajor_val_two, Shape.rowMajor_val_three]
    show b.val * 256 + q.val = (b.val * 1 + u.val) * 256 + q.val
    omega)

/-- A column 8 × 256 × 1 spread along the last axis reads, at (b, p, q), the column at (b, p, 0). -/
theorem bcast_col (x : S8x256x1.Idx → α) (h : S8x256x1.Broadcasts S8x256x256) (b : Fin 8) (p q : Fin 256) :
    broadcastTo S8x256x256 x h (ix3 b p q) = x (ix3 b p (0 : Fin 1)) :=
  broadcastTo_apply x h _ _ (fun a => match a with | ⟨0, _⟩ => rfl | ⟨1, _⟩ => rfl | ⟨2, _⟩ => rfl)

/-- A row 8 × 1 × 256 spread along the middle axis reads, at (b, p, q), the row at (b, 0, q). -/
theorem bcast_row (x : S8x1x256.Idx → α) (h : S8x1x256.Broadcasts S8x256x256) (b : Fin 8) (p q : Fin 256) :
    broadcastTo S8x256x256 x h (ix3 b p q) = x (ix3 b (0 : Fin 1) q) :=
  broadcastTo_apply x h _ _ (fun a => match a with | ⟨0, _⟩ => rfl | ⟨1, _⟩ => rfl | ⟨2, _⟩ => rfl)

end Layout

/-- One entry of the difference table: the column's logarithm at (b, p) less the row's at (b, q), in absolute value. -/
theorem term_apply (x0 x1 : Vec Ideal S8x256 .f32) (h1 : S8x256.ShapeCasts S8x256x1) (h2 : S8x256.ShapeCasts S8x1x256)
    (h3 : S8x256x1.Broadcasts S8x256x256) (h4 : S8x1x256.Broadcasts S8x256x256) (b : Fin 8) (p q : Fin 256) :
    absf (F := Ideal) (φ := .f32)
        (subf
          (broadcastTo S8x256x256
            (shapeCast S8x256x1 (log (addf x0 (broadcast S8x256 (Scalar.ofBits (F := Ideal) .f32 0x358637BD#32)))) h1) h3)
          (broadcastTo S8x256x256
            (shapeCast S8x1x256 (log (addf x1 (broadcast S8x256 (Scalar.ofBits (F := Ideal) .f32 0x358637BD#32)))) h2) h4))
        (ix3 b p q)
      = pairTerm x0 x1 b p q := by
  show FloatOps.absf (F := Ideal) (φ := .f32)
    (broadcastTo S8x256x256 _ h3 (ix3 b p q) - broadcastTo S8x256x256 _ h4 (ix3 b p q)) = _
  rw [bcast_col, bcast_row, cast_col, cast_row]
  rfl

/-- The accumulate payload at an entry: the old total there plus the tile's sum. -/
theorem pay2_apply (x0 x1 : Vec Ideal S8x256 .f32) (acc : Vec Ideal S8x128 .f32) (y : S8x128.Idx) :
    (k0_pay2 (F := Ideal) x0 x1 acc y : EReal)
      = (acc y : EReal) + ∑ b : Fin 8, ∑ p : Fin 256, ∑ q : Fin 256, pairTerm x0 x1 b p q := by
  unfold k0_pay2
  refine (congrFun (shapeCast_self _ _) y).trans ?_
  refine (addf_apply _ _ y).trans ?_
  refine congrArg (HAdd.hAdd (acc y : EReal)) ?_
  refine (red_row _ _ (.inl rfl) rfl _).trans ?_
  refine Finset.sum_congr rfl fun b _ => ?_
  refine (shapeCast_a_1a_apply _ _ (0 : Fin 1) b).trans ?_
  refine (red_mid _ _ (.inl rfl) rfl b).trans ?_
  refine Finset.sum_congr rfl fun p _ => ?_
  refine (red_last _ _ (.inl rfl) rfl b p).trans ?_
  refine Finset.sum_congr rfl fun q _ => ?_
  exact term_apply x0 x1 _ _ _ _ b p q

end Cert.KernelIdeal.Fr

end
-- ==== Proof.KI.Blocks.lean ====
/-
  Each window's block at a grid point, read off the attention matrix. The grid is 4 × 8 × 8 in row-major order, so
  point t has tile coordinates (t / 64 % 4, t / 8 % 8, t % 8); window 0's block is rows 8·(t/64%4) + b and columns
  256·(t/8%8) + p of the matrix, window 1's the same rows and columns 256·(t%8) + q.
-/
import proofs.«134412_j23502061044472_1_alg».proof.Proof.KI.Base
import Idealize.ShloMosaic.Lib.ValueIdx
import Idealize.ShloMosaic.Lib.Pipeline.Value

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Window 0's block at point `t`, at its literal type. -/
abbrev blk0 (c : Dev nD) (t : Fin cfg0.N) : Vec F S8x256 .f32 := iblk m c 0 t
/-- Window 1's block at point `t`, at its literal type. -/
abbrev blk1 (c : Dev nD) (t : Fin cfg0.N) : Vec F S8x256 .f32 := iblk m c 1 t
/-- The attention matrix as the region finds it, at its literal type. -/
abbrev att (c : Dev nD) : Vec F S32x2048 .f32 := V m c main_arg0

/-- The matrix as the region finds it is the launch's. -/
theorem att_eq (c : Dev nD) : att m c = m ((c : Thread nD τ).loc main_arg0) := V_main_arg0 m c

/-- Window 0's index map over the grid, in closed form: block row t/64 % 4, block column t/8 % 8. -/
theorem idx0 : ∀ t : Fin cfg0.N, win0_0.index t (0 : Fin 2) = t.val / 64 % 4 ∧ win0_0.index t (1 : Fin 2) = t.val / 8 % 8 :=
  (by decide +kernel : ∀ t : Fin grid0.N, _)

/-- Window 1's index map over the grid, in closed form: block row t/64 % 4, block column t % 8. -/
theorem idx1 : ∀ t : Fin cfg0.N, win0_1.index t (0 : Fin 2) = t.val / 64 % 4 ∧ win0_1.index t (1 : Fin 2) = t.val % 8 :=
  (by decide +kernel : ∀ t : Fin grid0.N, _)

/-- Window 0's block at point `t` is rows 8·(t/64%4) + b, columns 256·(t/8%8) + p of the matrix. -/
theorem blk0_apply (c : Dev nD) (t : Fin cfg0.N) (b : Fin 8) (p : Fin 256) :
    blk0 m c t (ix2 b p)
      = att m c (ix2 (⟨8 * (t.val / 64 % 4) + b.val, by omega⟩ : Fin 32) (⟨256 * (t.val / 8 % 8) + p.val, by omega⟩ : Fin 2048)) := by
  obtain ⟨e0, e1⟩ := idx0 t
  show V m c main_arg0 (((cfg0.win 0).blk t).view.emb (ix2 b p))
      = V m c main_arg0 (ix2 (⟨8 * (t.val / 64 % 4) + b.val, by omega⟩ : Fin 32) (⟨256 * (t.val / 8 % 8) + p.val, by omega⟩ : Fin 2048))
  refine congrArg (V m c main_arg0) ?_
  funext a; apply Fin.ext
  match a with
  | ⟨0, _⟩ => show win0_0.index t (0 : Fin 2) * 8 + 1 * b.val = 8 * (t.val / 64 % 4) + b.val; omega
  | ⟨1, _⟩ => show win0_0.index t (1 : Fin 2) * 256 + 1 * p.val = 256 * (t.val / 8 % 8) + p.val; omega

/-- Window 1's block at point `t` is rows 8·(t/64%4) + b, columns 256·(t%8) + q of the matrix. -/
theorem blk1_apply (c : Dev nD) (t : Fin cfg0.N) (b : Fin 8) (q : Fin 256) :
    blk1 m c t (ix2 b q)
      = att m c (ix2 (⟨8 * (t.val / 64 % 4) + b.val, by omega⟩ : Fin 32) (⟨256 * (t.val % 8) + q.val, by omega⟩ : Fin 2048)) := by
  obtain ⟨e0, e1⟩ := idx1 t
  show V m c main_arg0 (((cfg0.win 1).blk t).view.emb (ix2 b q))
      = V m c main_arg0 (ix2 (⟨8 * (t.val / 64 % 4) + b.val, by omega⟩ : Fin 32) (⟨256 * (t.val % 8) + q.val, by omega⟩ : Fin 2048))
  refine congrArg (V m c main_arg0) ?_
  funext a; apply Fin.ext
  match a with
  | ⟨0, _⟩ => show win0_1.index t (0 : Fin 2) * 8 + 1 * b.val = 8 * (t.val / 64 % 4) + b.val; omega
  | ⟨1, _⟩ => show win0_1.index t (1 : Fin 2) * 256 + 1 * q.val = 256 * (t.val % 8) + q.val; omega

end Cert.KernelIdeal.Fr

end
-- ==== Proof.GiniSum.lean ====
/-
  The Gini pairwise sum as plain mathematics on the extended reals.

  For a table `g b i j` (b < 32, i j < 2048) of extended reals, `total g` is the sum of every entry.
  The kernel visits the table in 4 × 8 × 8 tiles of 8 × 256 × 256 entries, in row-major order of the
  tile coordinates, and keeps a running total; the reference sums each row b over (i, j), divides each
  row sum by 2^23 and adds the 32 quotients. Both are `total g` (divided by 2^23): sums on the extended
  reals are commutative and associative whatever infinities occur, and division by the positive real 2^23
  is multiplication by the positive real 2^-23, which distributes over every sum of extended reals.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic
import Mathlib.Data.EReal.Operations
import Mathlib.Tactic.Ring
import Mathlib.Tactic.NormNum

noncomputable section

open scoped BigOperators

namespace GiniSum

open Idealize.ShloMosaic Idealize.ShloMosaic.ValueIdx

/-! ### Re-indexing finite sums over a product of two ranges -/

/-- A sum over `n = a·b` indices is the double sum over quotient `x < a` and remainder `y < b`
    of the index `b·x + y`. -/
theorem sum_fin_split {M : Type*} [AddCommMonoid M] {n : ℕ} (a b : ℕ) (h : n = a * b) (f : Fin n → M) :
    ∑ i : Fin n, f i
      = ∑ x : Fin a, ∑ y : Fin b, f ⟨b * x.val + y.val, by
          subst h
          calc b * x.val + y.val < b * x.val + b := by omega
            _ = b * (x.val + 1) := by ring
            _ ≤ b * a := Nat.mul_le_mul_left b x.isLt
            _ = a * b := Nat.mul_comm b a⟩ := by
  subst h
  rw [← finProdFinEquiv.sum_comp, Fintype.sum_prod_type]
  refine Finset.sum_congr rfl fun x _ => Finset.sum_congr rfl fun y _ => congrArg f (Fin.ext ?_)
  simp [finProdFinEquiv]
  omega

/-- The same on two axes at once, the two quotients outermost. -/
theorem sum_fin_split₂ {M : Type*} [AddCommMonoid M] {n m : ℕ} (a b a' b' : ℕ) (h : n = a * b) (h' : m = a' * b')
    (f : Fin n → Fin m → M) :
    ∑ i : Fin n, ∑ j : Fin m, f i j
      = ∑ x : Fin a, ∑ x' : Fin a', ∑ y : Fin b, ∑ y' : Fin b',
          f ⟨b * x.val + y.val, by
              subst h
              calc b * x.val + y.val < b * x.val + b := by omega
                _ = b * (x.val + 1) := by ring
                _ ≤ b * a := Nat.mul_le_mul_left b x.isLt
                _ = a * b := Nat.mul_comm b a⟩
            ⟨b' * x'.val + y'.val, by
              subst h'
              calc b' * x'.val + y'.val < b' * x'.val + b' := by omega
                _ = b' * (x'.val + 1) := by ring
                _ ≤ b' * a' := Nat.mul_le_mul_left b' x'.isLt
                _ = a' * b' := Nat.mul_comm b' a'⟩ := by
  rw [sum_fin_split a b h]
  refine Finset.sum_congr rfl fun x _ => ?_
  refine (Finset.sum_congr rfl fun y _ => sum_fin_split a' b' h' _).trans ?_
  exact Finset.sum_comm

/-- The whole table's sum. -/
def total (g : Fin 32 → Fin 2048 → Fin 2048 → EReal) : EReal := ∑ b : Fin 32, ∑ i : Fin 2048, ∑ j : Fin 2048, g b i j

/-- The sum of the tile at tile coordinates (bi, ii, jj): rows 8·bi + b, columns 256·ii + p and 256·jj + q. -/
def tileSum (g : Fin 32 → Fin 2048 → Fin 2048 → EReal) (bi : Fin 4) (ii jj : Fin 8) : EReal :=
  ∑ b : Fin 8, ∑ p : Fin 256, ∑ q : Fin 256,
    g ⟨8 * bi.val + b.val, by omega⟩ ⟨256 * ii.val + p.val, by omega⟩ ⟨256 * jj.val + q.val, by omega⟩

/-- The tile the n-th grid point visits (row-major: n = 64·bi + 8·ii + jj), for any natural n (taken mod the grid). -/
def pointSum (g : Fin 32 → Fin 2048 → Fin 2048 → EReal) (n : ℕ) : EReal :=
  tileSum g ⟨n / 64 % 4, Nat.mod_lt _ (by decide)⟩ ⟨n / 8 % 8, Nat.mod_lt _ (by decide)⟩ ⟨n % 8, Nat.mod_lt _ (by decide)⟩

/-- The running total after grid point n. -/
def accAt (g : Fin 32 → Fin 2048 → Fin 2048 → EReal) : ℕ → EReal
  | 0 => 0 + pointSum g 0
  | n + 1 => accAt g n + pointSum g (n + 1)

/-- The tiles partition the table. -/
theorem sum_tiles (g : Fin 32 → Fin 2048 → Fin 2048 → EReal) :
    ∑ bi : Fin 4, ∑ ii : Fin 8, ∑ jj : Fin 8, tileSum g bi ii jj = total g := by
  unfold total tileSum
  symm
  -- split the row axis, then the two column axes of every row
  rw [sum_fin_split 4 8 rfl]
  refine Finset.sum_congr rfl fun bi _ => ?_
  refine (Finset.sum_congr rfl fun b _ => sum_fin_split₂ 8 256 8 256 rfl rfl _).trans ?_
  -- ∑ b, ∑ ii, ∑ jj, … = ∑ ii, ∑ jj, ∑ b, …
  rw [Finset.sum_comm]
  refine Finset.sum_congr rfl fun ii _ => ?_
  rw [Finset.sum_comm]

/-- The running total is the sum of the tiles visited so far. -/
theorem accAt_eq_sum (g : Fin 32 → Fin 2048 → Fin 2048 → EReal) (n : ℕ) :
    accAt g n = ∑ t ∈ Finset.range (n + 1), pointSum g t := by
  induction n with
  | zero => simp [accAt]
  | succ n ih => rw [accAt, ih, Finset.sum_range_succ _ (n + 1)]

/-- The grid point 64·bi + (8·ii + jj) visits the tile (bi, ii, jj). -/
theorem pointSum_tile (g : Fin 32 → Fin 2048 → Fin 2048 → EReal) (bi : Fin 4) (ii jj : Fin 8) :
    pointSum g (64 * bi.val + (8 * ii.val + jj.val)) = tileSum g bi ii jj := by
  have h1 : (⟨(64 * bi.val + (8 * ii.val + jj.val)) / 64 % 4, Nat.mod_lt _ (by decide)⟩ : Fin 4) = bi :=
    Fin.ext (show (64 * bi.val + (8 * ii.val + jj.val)) / 64 % 4 = bi.val by omega)
  have h2 : (⟨(64 * bi.val + (8 * ii.val + jj.val)) / 8 % 8, Nat.mod_lt _ (by decide)⟩ : Fin 8) = ii :=
    Fin.ext (show (64 * bi.val + (8 * ii.val + jj.val)) / 8 % 8 = ii.val by omega)
  have h3 : (⟨(64 * bi.val + (8 * ii.val + jj.val)) % 8, Nat.mod_lt _ (by decide)⟩ : Fin 8) = jj :=
    Fin.ext (show (64 * bi.val + (8 * ii.val + jj.val)) % 8 = jj.val by omega)
  unfold pointSum
  rw [h1, h2, h3]

/-- After the last of the 256 grid points the running total is the whole table's sum. -/
theorem accAt_last (g : Fin 32 → Fin 2048 → Fin 2048 → EReal) : accAt g 255 = total g := by
  rw [accAt_eq_sum, ← sum_tiles, Finset.sum_range (fun t => pointSum g t)]
  -- 256 grid points = 4 · 64, and 64 = 8 · 8
  rw [sum_fin_split 4 64 rfl]
  refine Finset.sum_congr rfl fun bi _ => ?_
  rw [sum_fin_split 8 8 rfl]
  refine Finset.sum_congr rfl fun ii _ => Finset.sum_congr rfl fun jj _ => ?_
  exact pointSum_tile g bi ii jj

/-- The divisor's word is the real 2^23. -/
theorem ofBits_two23 : Ideal.ofBits .f32 0x4B000000#32 = ((8388608 : ℝ) : EReal) := by
  simp [Ideal.ofBits, Ideal.ieee, -EReal.coe_mul]

/-- A nonnegative real factor on the right distributes over any finite sum of extended reals. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Row by row division then a sum from zero, as the reference does it, is the whole sum divided once. -/
theorem rows_div (g : Fin 32 → Fin 2048 → Fin 2048 → EReal) :
    (0 : EReal) + ∑ b : Fin 32, Ideal.div (0 + ∑ i : Fin 2048, ∑ j : Fin 2048, g b i j) (Ideal.ofBits .f32 0x4B000000#32)
      = Ideal.div (total g) (Ideal.ofBits .f32 0x4B000000#32) := by
  rw [ofBits_two23, Ideal.div_coe (by norm_num : (8388608 : ℝ) ≠ 0), zero_add]
  unfold total
  rw [sum_mul_coe_of_nonneg _ _ (by norm_num : (0 : ℝ) ≤ 1 / 8388608)]
  refine Finset.sum_congr rfl fun b _ => ?_
  rw [Ideal.div_coe (by norm_num : (8388608 : ℝ) ≠ 0), zero_add]

/-- The loss from the cross-entropy term `ce` and the pairwise total: ce − ½ · (total / 2^23). -/
def loss (ce tot : EReal) : EReal :=
  ce - Ideal.ofBits .f32 0x3F000000#32 * Ideal.div tot (Ideal.ofBits .f32 0x4B000000#32)

/-- log (att + ε) at row b, column i; ε is the f32 word of 1e-6, the same word in both programs. -/
def lg (x : (⟨2, ![32, 2048]⟩ : Shape).Idx → EReal) (b : Fin 32) (i : Fin 2048) : EReal :=
  Ideal.log (x (ix2 b i) + Ideal.ofBits .f32 0x358637BD#32)

/-- The table both programs sum: |log(att[b,i] + ε) − log(att[b,j] + ε)|. -/
def pairs (x : (⟨2, ![32, 2048]⟩ : Shape).Idx → EReal) (b : Fin 32) (i j : Fin 2048) : EReal :=
  FloatOps.absf (F := Ideal) (φ := .f32) (lg x b i - lg x b j)

end GiniSum

end
-- ==== Proof.KI.Accum.lean ====
/-
  The running total, point by point, at Ideal. The tile a grid point sums is the tile of the table
  |log(att[b,i]+ε) − log(att[b,j]+ε)| at the point's tile coordinates; so after point n every entry of the scratch
  holds the running total `GiniSum.accAt` of that table, and the output block, stored at the last point, holds the
  table's whole sum at every entry.
-/
import proofs.«134412_j23502061044472_1_alg».proof.Proof.KI.Pieces
import proofs.«134412_j23502061044472_1_alg».proof.Proof.KI.Payload
import proofs.«134412_j23502061044472_1_alg».proof.Proof.KI.Blocks
import proofs.«134412_j23502061044472_1_alg».proof.Proof.GiniSum

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The table both programs sum, over the attention matrix as the region finds it. -/
abbrev tbl (c : Dev nD) : Fin 32 → Fin 2048 → Fin 2048 → EReal := GiniSum.pairs (att m c)

/-- The tile point `t` sums is the table's tile at `t`'s tile coordinates. -/
theorem tile_eq (c : Dev nD) (t : Fin cfg0.N) :
    ∑ b : Fin 8, ∑ p : Fin 256, ∑ q : Fin 256, pairTerm (blk0 m c t) (blk1 m c t) b p q = GiniSum.pointSum (tbl m c) t.val := by
  unfold GiniSum.pointSum GiniSum.tileSum
  refine Finset.sum_congr rfl fun b _ => Finset.sum_congr rfl fun p _ => Finset.sum_congr rfl fun q _ => ?_
  unfold pairTerm tbl GiniSum.pairs GiniSum.lg
  rw [blk0_apply m c t b p, blk1_apply m c t b q]

/-- The scratch after the first point: the accumulate payload over the reset payload. -/
theorem snd_A (c : Dev nD) (t : Fin cfg0.N) (h0 : t.val = 0) (h1 : ¬t.val = 255) :
    (outsAt0 (F := Ideal) m c t.val t.isLt).2 = k0_pay2 (blk0 m c t) (blk1 m c t) (k0_pay1 (F := Ideal)) := by
  rw [outsAt0_A m c t h0 h1]
  exact sout0_A_0_eq (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The scratch after a middle point: the accumulate payload over what the point before left. -/
theorem snd_B (c : Dev nD) (t : Fin cfg0.N) (h0 : ¬t.val = 0) (h1 : ¬t.val = 255) :
    (outsAt0 (F := Ideal) m c t.val t.isLt).2
      = k0_pay2 (blk0 m c t) (blk1 m c t) (outsAt0 m c (t.val - 1) (Nat.lt_of_le_of_lt (Nat.sub_le _ _) t.isLt)).2 := by
  rw [outsAt0_B m c t h0 h1]
  exact sout0_B_0_eq (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The scratch after the last point: the accumulate payload over what the point before left, -/
theorem snd_C (c : Dev nD) (t : Fin cfg0.N) (h0 : ¬t.val = 0) (h1 : t.val = 255) :
    (outsAt0 (F := Ideal) m c t.val t.isLt).2
      = k0_pay2 (blk0 m c t) (blk1 m c t) (outsAt0 m c (t.val - 1) (Nat.lt_of_le_of_lt (Nat.sub_le _ _) t.isLt)).2 := by
  rw [outsAt0_C m c t h0 h1]
  exact sout0_C_0_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- and the output block after the last point holds the same. -/
theorem fst_C (c : Dev nD) (t : Fin cfg0.N) (h0 : ¬t.val = 0) (h1 : t.val = 255) :
    (outsAt0 (F := Ideal) m c t.val t.isLt).1
      = k0_pay2 (blk0 m c t) (blk1 m c t) (outsAt0 m c (t.val - 1) (Nat.lt_of_le_of_lt (Nat.sub_le _ _) t.isLt)).2 := by
  rw [outsAt0_C m c t h0 h1]
  exact out0_C_2_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- One point's step at an entry: the old total there plus the sum of the tile the point visits. -/
theorem step_eq (c : Dev nD) (t : Fin cfg0.N) (acc : Vec Ideal S8x128 .f32) (y : S8x128.Idx) :
    (k0_pay2 (F := Ideal) (blk0 m c t) (blk1 m c t) acc y : EReal) = (acc y : EReal) + GiniSum.pointSum (tbl m c) t.val :=
  (pay2_apply (blk0 m c t) (blk1 m c t) acc y).trans (congrArg (HAdd.hAdd (acc y : EReal)) (tile_eq m c t))

/-- The running total's step. -/
theorem accAt_succ (g : Fin 32 → Fin 2048 → Fin 2048 → EReal) (n : ℕ) :
    GiniSum.accAt g (n + 1) = GiniSum.accAt g n + GiniSum.pointSum g (n + 1) := rfl

/-- The running total at the first point. -/
theorem accAt_zero (g : Fin 32 → Fin 2048 → Fin 2048 → EReal) :
    GiniSum.accAt g 0 = 0 + GiniSum.pointSum g 0 := rfl

/-- After point `n` every entry of the scratch holds the running total. -/
theorem scratch_at (c : Dev nD) (n : ℕ) (hn : n < cfg0.N) (y : S8x128.Idx) :
    ((outsAt0 (F := Ideal) m c n hn).2 y : EReal) = GiniSum.accAt (tbl m c) n := by
  induction n generalizing y with
  | zero =>
    refine Eq.trans ?_ (accAt_zero (tbl m c)).symm
    refine (congrFun (snd_A m c ⟨0, hn⟩ rfl (show ¬((0 : ℕ) = 255) by decide)) y).trans ?_
    refine (step_eq m c ⟨0, hn⟩ (k0_pay1 (F := Ideal)) y).trans ?_
    exact congrArg (fun x : EReal => x + GiniSum.pointSum (tbl m c) 0) (pay1_apply y)
  | succ n ih =>
    have hp : n < cfg0.N := Nat.lt_of_succ_lt hn
    refine Eq.trans ?_ (accAt_succ (tbl m c) n).symm
    by_cases h1 : n + 1 = 255
    · refine (congrFun (snd_C m c ⟨n + 1, hn⟩ (Nat.succ_ne_zero n) h1) y).trans ?_
      refine (step_eq m c ⟨n + 1, hn⟩ (outsAt0 (F := Ideal) m c n hp).2 y).trans ?_
      exact congrArg (· + GiniSum.pointSum (tbl m c) (n + 1)) (ih hp y)
    · refine (congrFun (snd_B m c ⟨n + 1, hn⟩ (Nat.succ_ne_zero n) h1) y).trans ?_
      refine (step_eq m c ⟨n + 1, hn⟩ (outsAt0 (F := Ideal) m c n hp).2 y).trans ?_
      exact congrArg (· + GiniSum.pointSum (tbl m c) (n + 1)) (ih hp y)

/-- After a point that is the last one, every entry of the output block holds the running total there. -/
theorem out_at (c : Dev nD) (n : ℕ) (hn : n < cfg0.N) (h1 : n = 255) (y : S8x128.Idx) :
    ((outsAt0 (F := Ideal) m c n hn).1 y : EReal) = GiniSum.accAt (tbl m c) n := by
  obtain ⟨k, rfl⟩ : ∃ k, n = k + 1 := ⟨n - 1, by omega⟩
  have hp : k < cfg0.N := Nat.lt_of_succ_lt hn
  refine Eq.trans ?_ (accAt_succ (tbl m c) k).symm
  refine (congrFun (fst_C m c ⟨k + 1, hn⟩ (Nat.succ_ne_zero k) h1) y).trans ?_
  refine (step_eq m c ⟨k + 1, hn⟩ (outsAt0 (F := Ideal) m c k hp).2 y).trans ?_
  exact congrArg (· + GiniSum.pointSum (tbl m c) (k + 1)) (scratch_at m c k hp y)

/-- After the last point every entry of the output block holds the table's whole sum. -/
theorem out_last (c : Dev nD) (hn : 255 < cfg0.N) (y : S8x128.Idx) :
    ((outsAt0 (F := Ideal) m c 255 hn).1 y : EReal) = GiniSum.total (tbl m c) := by
  exact (out_at m c 255 hn rfl y).trans (GiniSum.accAt_last (tbl m c))

end Cert.KernelIdeal.Fr

end
-- ==== Proof.KI.ArrOut.lean ====
/-
  The output array after the region, at Ideal. Only the last grid point writes the output block back, and that block
  is the whole 8 × 128 array; what the last point left in it is the table's whole sum at every entry.
-/
import proofs.«134412_j23502061044472_1_alg».proof.Proof.KI.Accum
import Idealize.ShloMosaic.Lib.Pipeline.Value

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- An index of the array is in a point's block iff each coordinate is in the block's range on its axis. -/
theorem out2_mem_blk (t : Fin cfg0.N) (i : S8x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v6).slice (win0_2.rect t)).set ↔ _
  rw [View.set_slice_whole, Rect.mem_set_unit]
  exact Iff.rfl

/-- The output window's block index is (0, 0) at every point. -/
theorem out2_index (t : Fin cfg0.N) (a : Fin 2) : win0_2.index t a = 0 := by
  show cc0_transform_2 (grid0.coords t) a = 0
  unfold cc0_transform_2
  match a with
  | ⟨0, _⟩ => rfl
  | ⟨1, _⟩ => rfl

/-- The block at (0, 0) is the whole 8 × 128 array: every index lies in the block of every point. -/
theorem out2_mem_all (t : Fin cfg0.N) (i : S8x128.Idx) : i ∈ ((cfg0.win 2).blk t).view.set := by
  rw [out2_mem_blk]
  intro a
  rw [out2_index t a]
  match a with
  | ⟨0, _⟩ =>
    have h : (i 0).val < 8 := (i 0).isLt
    exact ⟨Nat.zero_le _, by show (i 0).val < 0 * 8 + 8; omega⟩
  | ⟨1, _⟩ =>
    have h : (i 1).val < 128 := (i 1).isLt
    exact ⟨Nat.zero_le _, by show (i 1).val < 0 * 128 + 128; omega⟩

/-- Only the last point writes the output block back. -/
theorem out2_flush_last (t : Fin cfg0.N) (hf : (cfg0.win 2).flush t = true) : t.val = 255 := by
  have h := (flush0_2 t).mp hf
  have hN : t.val < 256 := lt_of_lt_of_eq t.isLt N_0
  omega

/-- What a point writes back is what the body left in the output block: the window is uncut. -/
theorem out2_flushed (c : Dev nD) (t : Fin cfg0.N) :
    (dats (F := Ideal) m 0 c).flushed 2 t = (cfg0.win 2).cut (grid0.coords t) ((outsAt0 m c t.val t.isLt).1) := by
  show (cfg0.win 2).cut (grid0.coords t) ((dats m 0 c).after 2 t) = _
  rw [after0_2]

/-- The output block after a point numbered 255, at any entry. -/
theorem out2_at_last (c : Dev nD) (n : ℕ) (hn : n < cfg0.N) (e : n = 255) (y : S8x128.Idx) :
    ((outsAt0 (F := Ideal) m c n hn).1 y : EReal) = GiniSum.total (tbl m c) := by
  subst e
  exact out_last m c hn y

/-- What a flushing point writes back is the constant block: the table's whole sum at every entry. -/
theorem out2_flushed_const (c : Dev nD) (t : Fin cfg0.N) (hf : (cfg0.win 2).flush t = true) :
    (dats (F := Ideal) m 0 c).flushed 2 t
      = ((cfg0.win 2).blk t).view.read (Elt Ideal) (fun _ => GiniSum.total (tbl m c)) := by
  rw [out2_flushed]
  funext y
  rw [View.read_apply]
  refine (out2_at_last m c t.val t.isLt (out2_flush_last t hf) ((cfg0.win 2).xinj (grid0.coords t) y)).trans ?_
  exact (cast_eq _ _).symm

/-- The output array after the region: the table's whole sum at every entry. -/
theorem arr_out (c : Dev nD) :
    ((dats (F := Ideal) m 0 c).arrAt 2 cfg0.N : S8x128.Idx → EReal) = fun _ => GiniSum.total (tbl m c) := by
  have hn : 255 < cfg0.N := lt_of_lt_of_eq (by decide : 255 < 256) N_0.symm
  exact (dats (F := Ideal) m 0 c).arrAt_eq_of_cover 2 (fun _ => GiniSum.total (tbl m c))
    (fun t hf => out2_flushed_const m c t hf)
    (fun i => ⟨⟨255, hn⟩, (flush0_2 _).mpr rfl, out2_mem_all _ i⟩)

end Cert.KernelIdeal.Fr

end
-- ==== Proof.KI.FrameClaim.lean ====
/-
  The frame claim of the Gini kernel's program, from its run: the attention matrix is an input array of the pipeline
  (never written back), and the logits and the labels bypass the region and are written by no host operation.
-/
import proofs.«134412_j23502061044472_1_alg».proof.Proof.KI.Frame

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines after the region write neither the logits nor the labels, and the region leaves them as it found them. -/
theorem end_main_arg1 (c : Dev nD) :
    StableHlo.after (List.flatten [hostOps1]) (Wx m c) (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Wx_of_ne m c main_arg1 (by decide)).trans (V_main_arg1 m c))

theorem end_main_arg2 (c : Dev nD) :
    StableHlo.after (List.flatten [hostOps1]) (Wx m c) (Proc.devRef .tc main_arg2) = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Wx_of_ne m c main_arg2 (by decide)).trans (V_main_arg2 m c))

/-- The final state of a run keeps the three arguments. -/
theorem args_kept (r : PUnit × MemSt nD τ sig (Elt F))
    (h : Pipeline.FramePost cfgs (dats m) 0 (fun c b => StableHlo.after (List.flatten [hostOps1]) (Wx m c) (Proc.devRef .tc b)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
   ((h c).2 main_arg1 (by decide)).trans (end_main_arg1 m c),
   ((h c).2 main_arg2 (by decide)).trans (end_main_arg2 m c)⟩

/-- THE FRAME: every weakly fair execution of @main terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m r h c) (run_main m ρ)

end Cert.KernelIdeal.Fr

end
-- ==== Proof.KI.CrossEntropy.lean ====
/-
  The cross-entropy term. Both programs compute it by the same host operations on the logits and the labels (a
  log-softmax, a take along the class axis with out-of-range labels read as not-a-number, a mean, a negation), in
  the same order: so the contents of the kernel program's buffer for it, when the region is entered, are the very
  term the reference's stage for it is defined as.
-/
import proofs.«134412_j23502061044472_1_alg».proof.Proof.KI.Base
import proofs.«134412_j23502061044472_1_alg».proof.Proof.Gen.ReferenceIdeal.Read
import Idealize.ShloMosaic.Lib.StableHlo.Run

-- membership in a rectangle of these extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel program's cross-entropy buffer holds the reference's cross-entropy stage of the same logits and labels. -/
theorem ce_eq (c : Dev nD) :
    (V m c main_v5 : (⟨S_, .f32⟩ : BufTy).Contents (Elt F))
      = Cert.ReferenceIdeal.Read.val_main_v5 (F := F) (m ((c : Thread nD τ).loc main_arg1)) (m ((c : Thread nD τ).loc main_arg2)) := by
  dsimp only [V, V0]
  simp only [hostOps0, hostOps0_1, hostOps0_2, hostOps0_3, List.flatten_cons, List.flatten_nil, List.append_nil, List.cons_append,
    List.nil_append]
  after_results_simp
  rfl

end Cert.KernelIdeal.Fr

end
-- ==== Proof.KI.Final.lean ====
/-
  The kernel program's result at Ideal. Only the last grid point writes the output block back, and the block is the
  whole 8 × 128 output array: so the array ends holding the table's whole sum at every entry. The lines after the
  region take its entry (0, 0), divide by 2^23, halve, and subtract from the cross-entropy term: the loss.
-/
import proofs.«134412_j23502061044472_1_alg».proof.Proof.KI.ArrOut
import proofs.«134412_j23502061044472_1_alg».proof.Proof.KI.FrameClaim
import proofs.«134412_j23502061044472_1_alg».proof.Proof.KI.CrossEntropy
import Idealize.ShloMosaic.Lib.StableHlo.Run
import Idealize.ShloMosaic.Lib.Pipeline.Value

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The table is over the launch's attention matrix: no host operation before the region writes it. -/
theorem tbl_eq (c : Dev nD) : tbl m c = GiniSum.pairs (m ((c : Thread nD τ).loc main_arg0)) := by
  unfold tbl; rw [att_eq]

/-- The lines after the region, from the exit contents: the loss of the cross-entropy term and the table's total. -/
theorem end_main_v11 (c : Dev nD) (i : S_.Idx) :
    (StableHlo.after (List.flatten [hostOps1]) (Wx (F := Ideal) m c) (Proc.devRef .tc main_v11) : S_.Idx → EReal) i
      = GiniSum.loss (Cert.ReferenceIdeal.Read.val_main_v5 (F := Ideal) (m ((c : Thread nD τ).loc main_arg1)) (m ((c : Thread nD τ).loc main_arg2)) i)
          (GiniSum.total (GiniSum.pairs (m ((c : Thread nD τ).loc main_arg0)))) := by
  -- the seven lines, composed: ce − ½ · (out[0,0] / 2^23)
  have e : (StableHlo.after (List.flatten [hostOps1]) (Wx (F := Ideal) m c) (Proc.devRef .tc main_v11) : S_.Idx → EReal)
      = subf (Wx m c (Proc.devRef .tc main_v5) : FVec Ideal S_ .f32)
          (mulf (constant (F := Ideal) S_ .f32 0x3F000000#32)
            (Host.divf (shapeCast S_ (extractStridedSlice S1x1 ![0, 0] (Wx m c (Proc.devRef .tc main_v6) : FVec Ideal S8x128 .f32) slices_S8x128_S1x1_0_0) shapeCasts_S1x1_S_)
              (constant (F := Ideal) S_ .f32 0x4B000000#32))) := by
    simp only [hostOps1, List.flatten_cons, List.flatten_nil, List.append_nil]
    after_results
    rfl
  -- the output array is constant, so its entry (0, 0) is the total; the cross-entropy buffer was not touched by the region
  rw [e, Wx_v6, arr_out, Wx_of_ne m c main_v5 (by decide)]
  have hce : (V0 m c (Proc.devRef .tc main_v5) : S_.Idx → EReal)
      = Cert.ReferenceIdeal.Read.val_main_v5 (F := Ideal) (m ((c : Thread nD τ).loc main_arg1)) (m ((c : Thread nD τ).loc main_arg2)) :=
    ce_eq (F := Ideal) m c
  rw [hce, tbl_eq]
  rfl

/-- THE RUN with the result named: every weakly fair execution of @main terminates with the result at the loss and
    the arguments unchanged. -/
theorem run : θ_run defs (onTc (τ := τ) (main (F := Ideal))) ⟨m, fun _ => 0, ρ⟩ (fun r => ∀ c : Dev nD,
      r.2.mem ((c.tc : Thread nD τ).loc main_v11)
        = (fun i => GiniSum.loss (Cert.ReferenceIdeal.Read.val_main_v5 (F := Ideal) (m ((c : Thread nD τ).loc main_arg1)) (m ((c : Thread nD τ).loc main_arg2)) i)
            (GiniSum.total (GiniSum.pairs (m ((c : Thread nD τ).loc main_arg0)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v11 (by decide)).trans (funext fun i => end_main_v11 m c i), args_kept m r h c⟩) (run_main m ρ)

end Cert.KernelIdeal.Fr

end
-- ==== Proof.RefValue.lean ====
/-
  The reference's result as mathematics: its value is
  ce − ½ · (0 + Σ_b ((0 + Σ_{i,j} |log(att[b,i]+ε) − log(att[b,j]+ε)|) / 2^23)),
  which is `GiniSum.loss ce (total of the table)`: the inner sum over the two trailing axes is the double sum
  over (i, j), and dividing row by row then adding is dividing the whole sum once (GiniSum.rows_div).
-/
import proofs.«134412_j23502061044472_1_alg».proof.Proof.Gen.ReferenceIdeal.Read
import proofs.«134412_j23502061044472_1_alg».proof.Proof.GiniSum
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Dropping the two trailing axes of a [32, 2048, 2048] index leaves its leading coordinate. -/
theorem drop_eq (h : S32x2048x2048.ReducesTo [1, 2] S32) (i : S32x2048x2048.Idx) :
    h.drop i = ix1 (n := 32) (i 0) := by
  funext b
  match b with
  | ⟨0, _⟩ => exact Fin.ext (Shape.ReducesTo.drop_apply_val_of_eq h i (0 : Fin 1) (0 : Fin 3))

/-- The indices whose leading coordinate is b are the pairs (p, q) of trailing coordinates: the sum over them is
    the double sum. -/
theorem sum_filter_drop (h : S32x2048x2048.ReducesTo [1, 2] S32) (y : S32x2048x2048.Idx → EReal) (b : Fin 32)
    [DecidablePred fun i : S32x2048x2048.Idx => h.drop i = ix1 b] :
    ∑ i ∈ Finset.univ.filter (fun i => h.drop i = ix1 b), y i = ∑ p : Fin 2048, ∑ q : Fin 2048, y (ix3 b p q) := by
  have hmem : ∀ i : S32x2048x2048.Idx, h.drop i = ix1 b → ix3 (n0 := 32) (n1 := 2048) (n2 := 2048) b (i 1) (i 2) = i := by
    intro i hi
    rw [drop_eq] at hi
    have h0 : i 0 = b := congrFun hi 0
    funext a
    match a with
    | ⟨0, _⟩ => exact h0.symm
    | ⟨1, _⟩ => rfl
    | ⟨2, _⟩ => rfl
  have hdrop : ∀ p q : Fin 2048, h.drop (ix3 b p q) = ix1 b := by
    intro p q
    rw [drop_eq]
  rw [← Fintype.sum_prod_type']
  refine Finset.sum_nbij' (fun i => ((i 1 : Fin 2048), (i 2 : Fin 2048))) (fun pq => ix3 b pq.1 pq.2) ?_ ?_ ?_ ?_ ?_
  · intro i _
    simp only [Finset.mem_univ]
  · intro pq _
    exact Finset.mem_filter.mpr ⟨Finset.mem_univ _, hdrop pq.1 pq.2⟩
  · intro i hi
    exact hmem i (Finset.mem_filter.mp hi).2
  · intro pq _; rfl
  · intro i hi
    exact congrArg y (hmem i (Finset.mem_filter.mp hi).2).symm

/-- One entry of the reference's table of absolute differences is the pairwise term. -/
theorem v14_at (x0 : (⟨S32x2048, .f32⟩ : BufTy).Contents (Elt Ideal)) (b : Fin 32) (p q : Fin 2048) :
    val_main_v14 (F := Ideal) x0 (ix3 b p q) = GiniSum.pairs x0 b p q := by
  have h1 : idx_main_v9 (idx_main_v11 (ix3 b p q)) = ix2 b p :=
    funext fun a => Fin.ext (by match a with | ⟨0, _⟩ => rfl | ⟨1, _⟩ => rfl)
  have h2 : idx_main_v10 (idx_main_v12 (ix3 b p q)) = ix2 b q :=
    funext fun a => Fin.ext (by match a with | ⟨0, _⟩ => rfl | ⟨1, _⟩ => rfl)
  simp only [val_main_v14_apply, val_main_v13_apply, val_main_v11_apply, val_main_v12_apply, val_main_v9_apply,
    val_main_v10_apply, val_main_v8_apply, val_main_v7_apply, val_main_v6_apply, val_main_cst_1_apply, h1, h2]
  rfl

/-- The reference's result, at its one index, is the loss of the cross-entropy term and the table's total. -/
theorem val_eq (x0 : (⟨S32x2048, .f32⟩ : BufTy).Contents (Elt Ideal)) (x1 : (⟨S32x10, .f32⟩ : BufTy).Contents (Elt Ideal))
    (x2 : (⟨S32, .i32⟩ : BufTy).Contents (Elt Ideal)) (i : S_.Idx) :
    val_main_v20 (F := Ideal) x0 x1 x2 i
      = GiniSum.loss (val_main_v5 (F := Ideal) x1 x2 i) (GiniSum.total (GiniSum.pairs x0)) := by
  -- Row b of the quotient stage: zero plus the double sum over (p, q) of the pairwise terms, divided by 2^23.
  have hrow : ∀ b : Fin 32, val_main_v17 (F := Ideal) x0 (ix1 b)
      = Ideal.div (0 + ∑ p : Fin 2048, ∑ q : Fin 2048, GiniSum.pairs x0 b p q) (Ideal.ofBits .f32 0x4B000000#32) := by
    intro b
    rw [val_main_v17_apply, val_main_v16_apply, val_main_cst_3_apply]
    unfold val_main_v15
    simp only [Host.reduceAdd, Ideal.hostReduceAdd_def]
    unfold Ideal.hostReduceAdd
    rw [sum_filter_drop, val_main_cst_2_apply]
    simp only [v14_at, Ideal.hostDivf_def, Ideal.ofBits_def, Ideal.ofBits_zero_f32]
  -- The result: ce − ½ · (0 + Σ_b row b); the rows add up to the whole table's sum divided once.
  rw [val_main_v20_apply, val_main_v19_apply, val_main_v18_apply, val_main_cst_5_apply, val_main_cst_4_apply, sum_idx1]
  simp only [hrow, Ideal.ofBits_def, Ideal.ofBits_zero_f32]
  rw [GiniSum.rows_div (GiniSum.pairs x0)]
  rfl

end Cert.ReferenceIdeal.RefValue

end
-- ==== Proof.lean ====
/-
  The certificate of the Gini-loss kernel against its reference.

  Both programs compute  ce − ½ · (T / 2^23),  where ce is the mean cross-entropy of the logits at the labels (the same
  host operations in both) and T is the sum over rows b and column pairs (i, j) of |log(att[b,i]+ε) − log(att[b,j]+ε)|.
  The kernel sums T tile by tile over a 4 × 8 × 8 grid into a running total kept in scratch memory, reading the attention
  matrix through two windows; the reference sums each row, divides each row sum by 2^23 and adds the quotients. On
  the extended reals sums are commutative and associative whatever infinities occur, and division by the positive real
  2^23 distributes over them: the two results are one value, with no use of the inputs' finiteness.

  The three frames: the kernel's two programs (at the word-level and at the ideal instance) by the same text, the
  body run in its three cases (first point, middle points, last point); the reference's by its run.
-/
import proofs.«134412_j23502061044472_1_alg».proof.Defs
import proofs.«134412_j23502061044472_1_alg».proof.Proof.Gen.Kernel
import proofs.«134412_j23502061044472_1_alg».proof.Proof.Gen.KernelIdeal
import proofs.«134412_j23502061044472_1_alg».proof.Proof.Gen.ReferenceIdeal
import proofs.«134412_j23502061044472_1_alg».proof.Proof.Gen.Pre_finite_inputs
import proofs.«134412_j23502061044472_1_alg».proof.Proof.Gen.ReferenceIdeal.Run
import proofs.«134412_j23502061044472_1_alg».proof.Proof.Gen.ReferenceIdeal.Read
import proofs.«134412_j23502061044472_1_alg».proof.Proof.K.FrameClaim
import proofs.«134412_j23502061044472_1_alg».proof.Proof.KI.Final
import proofs.«134412_j23502061044472_1_alg».proof.Proof.RefValue

noncomputable section

namespace Cert.Proof

open Idealize.ShloMosaic Idealize.ShloMosaic.TcCoe Idealize.SL.Sem

theorem frame_p : @Cert.frame_Kernel Cert.Kernel.Gen.facts Cert.Pre_finite_inputs.Gen.facts :=
  fun m ρ _ => Cert.Kernel.Fr.frame m ρ

theorem frame_pi : @Cert.frame_KernelIdeal Cert.KernelIdeal.Gen.facts Cert.Pre_finite_inputs.Gen.facts :=
  fun m ρ _ => Cert.KernelIdeal.Fr.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments the two programs end at the same loss: the kernel's run names its
    result, the reference's run names its own, and the reference's is the loss of the same cross-entropy term and the
    same table's total. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Fr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2]
  exact funext fun i => Cert.ReferenceIdeal.RefValue.val_eq _ _ _ i

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
